-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x8 : Shape := ⟨2, ![1048576, 8]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x8 : S_.BroadcastsInDim S1048576x8 (![] : Fin 0 → Fin S1048576x8.rank)
  reducesTo_S1048576x8_S_d0_1 : S1048576x8.ReducesTo [0, 1] S_

variable [Facts]

def fn {F : FTy → Type} [FloatOps F] (main_arg0 : FVec F S1048576x64 .f32) (main_arg1 : IVec S1048576x8 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_c_0 : IVec S_ 32 := constantI S_ 32 0#32
  let main_v4 : IVec S1048576x8 32 := broadcastInDim S1048576x8 ![] bcast_S_S1048576x8 main_c_0
  let main_v5 : IVec S1048576x8 1 := cmpi .sge main_arg1 main_v4
  let main_c_1 : IVec S_ 1 := constantI S_ 1 1#1
  let main_v6 : IVec S_ 1 := (fun x v => Host.reduce IntOp.andi x v reducesTo_S1048576x8_S_d0_1 h_S_) main_v5 main_c_1
  let main_v7 : IVec S_ 1 := andi main_v3 main_v6
  main_v7
-- ==== Kernel.lean ====
abbrev S1048576x64 : Shape := ⟨2, ![1048576, 64]⟩
abbrev S1048576x8 : Shape := ⟨2, ![1048576, 8]⟩
abbrev S65536x128 : Shape := ⟨2, ![65536, 128]⟩
abbrev S2x64 : Shape := ⟨2, ![2, 64]⟩
abbrev S16384x64 : Shape := ⟨2, ![16384, 64]⟩
abbrev S1024x128 : Shape := ⟨2, ![1024, 128]⟩
abbrev S64 : Shape := ⟨1, ![64]⟩
abbrev S1x64 : Shape := ⟨2, ![1, 64]⟩
abbrev S1x1024x128 : Shape := ⟨3, ![1, 1024, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 21
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S1048576x8, .i32⟩
  | .hbm, ⟨2, _⟩ => ⟨S65536x128, .i32⟩
  | .hbm, ⟨3, _⟩ => ⟨S2x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S16384x64, .f32⟩
  | .local _ .vmem, ⟨1, _⟩ => ⟨S16384x64, .f32⟩
  | .local _ .vmem, ⟨2, _⟩ => ⟨S1024x128, .i32⟩
  | .local _ .vmem, ⟨3, _⟩ => ⟨S1024x128, .i32⟩
  | .local _ .vmem, ⟨4, _⟩ => ⟨S2x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1048576x8_S65536x128 : S1048576x8.ShapeCasts S65536x128
  inb_S2x64_S2x64_0_0 : ∀ a, (![0, 0] : Fin 2 → Nat) a + S2x64.size a ≤ S2x64.size a
  h_S2x64 : 0 < S2x64.numel
  inb_S16384x64_S16384x64_0_0 : ∀ a, (![0, 0] : Fin 2 → Nat) a + S16384x64.size a ≤ S16384x64.size a
  h_S16384x64 : 0 < S16384x64.numel
  reduces_S16384x64_S64 : S16384x64.Reduces [0] S64
  shapeCasts_S64_S1x64 : S64.ShapeCasts S1x64
  inb_S2x64_S1x64_0_0 : ∀ a, (![0, 0] : Fin 2 → Nat) a + S1x64.size a ≤ S2x64.size a
  h_S1x64 : 0 < S1x64.numel
  shapeCasts_S1x64_S1x64 : S1x64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  natLt_1_32 : 1 < 32
  shapeCasts_S1024x128_S1x1024x128 : S1024x128.ShapeCasts S1x1024x128
  reduces_S1x1024x128_S1 : S1x1024x128.Reduces [1, 2] S1
  shapeCasts_S1_S1x1x1 : S1.ShapeCasts S1x1x1
  inpos_S1x1x1_p0_0_0 : ∀ a, (![0, 0, 0] : Fin 3 → Nat) a < S1x1x1.size a
  inb_S2x64_S1x1_1_0 : ∀ a, (![1, 0] : Fin 2 → Nat) a + S1x1.size a ≤ S2x64.size a
  h_S1x1 : 0 < S1x1.numel
  shapeCasts_S1x1_S1x1 : S1x1.ShapeCasts S1x1
  inb_S2x64_S1x1_1_1 : ∀ a, (![1, 1] : Fin 2 → Nat) a + S1x1.size a ≤ S2x64.size a
  inb_S2x64_S1x1_1_2 : ∀ a, (![1, 2] : Fin 2 → Nat) a + S1x1.size a ≤ S2x64.size a
  inb_S2x64_S1x1_1_3 : ∀ a, (![1, 3] : Fin 2 → Nat) a + S1x1.size a ≤ S2x64.size a
  inb_S2x64_S1x1_1_4 : ∀ a, (![1, 4] : Fin 2 → Nat) a + S1x1.size a ≤ S2x64.size a
  inb_S2x64_S1x1_1_5 : ∀ a, (![1, 5] : Fin 2 → Nat) a + S1x1.size a ≤ S2x64.size a
  inb_S2x64_S1x1_1_6 : ∀ a, (![1, 6] : Fin 2 → Nat) a + S1x1.size a ≤ S2x64.size a
  inb_S2x64_S1x1_1_7 : ∀ a, (![1, 7] : Fin 2 → Nat) a + S1x1.size a ≤ S2x64.size a
  inb_S2x64_S1x1_1_8 : ∀ a, (![1, 8] : Fin 2 → Nat) a + S1x1.size a ≤ S2x64.size a
  inb_S2x64_S1x1_1_9 : ∀ a, (![1, 9] : Fin 2 → Nat) a + S1x1.size a ≤ S2x64.size a
  inb_S2x64_S1x1_1_10 : ∀ a, (![1, 10] : Fin 2 → Nat) a + S1x1.size a ≤ S2x64.size a
  inb_S2x64_S1x1_1_11 : ∀ a, (![1, 11] : Fin 2 → Nat) a + S1x1.size a ≤ S2x64.size a
  inb_S2x64_S1x1_1_12 : ∀ a, (![1, 12] : Fin 2 → Nat) a + S1x1.size a ≤ S2x64.size a
  inb_S2x64_S1x1_1_13 : ∀ a, (![1, 13] : Fin 2 → Nat) a + S1x1.size a ≤ S2x64.size a
  inb_S2x64_S1x1_1_14 : ∀ a, (![1, 14] : Fin 2 → Nat) a + S1x1.size a ≤ S2x64.size a
  inb_S2x64_S1x1_1_15 : ∀ a, (![1, 15] : Fin 2 → Nat) a + S1x1.size a ≤ S2x64.size a
  inb_S2x64_S1x1_1_16 : ∀ a, (![1, 16] : Fin 2 → Nat) a + S1x1.size a ≤ S2x64.size a
  inb_S2x64_S1x1_1_17 : ∀ a, (![1, 17] : Fin 2 → Nat) a + S1x1.size a ≤ S2x64.size a
  inb_S2x64_S1x1_1_18 : ∀ a, (![1, 18] : Fin 2 → Nat) a + S1x1.size a ≤ S2x64.size a
  inb_S2x64_S1x1_1_19 : ∀ a, (![1, 19] : Fin 2 → Nat) a + S1x1.size a ≤ S2x64.size a
  inb_S2x64_S1x1_1_20 : ∀ a, (![1, 20] : Fin 2 → Nat) a + S1x1.size a ≤ S2x64.size a
  inb_S2x64_S1x1_1_21 : ∀ a, (![1, 21] : Fin 2 → Nat) a + S1x1.size a ≤ S2x64.size a
  inb_S2x64_S1x1_1_22 : ∀ a, (![1, 22] : Fin 2 → Nat) a + S1x1.size a ≤ S2x64.size a
  inb_S2x64_S1x1_1_23 : ∀ a, (![1, 23] : Fin 2 → Nat) a + S1x1.size a ≤ S2x64.size a
  inb_S2x64_S1x1_1_24 : ∀ a, (![1, 24] : Fin 2 → Nat) a + S1x1.size a ≤ S2x64.size a
  inb_S2x64_S1x1_1_25 : ∀ a, (![1, 25] : Fin 2 → Nat) a + S1x1.size a ≤ S2x64.size a
  inb_S2x64_S1x1_1_26 : ∀ a, (![1, 26] : Fin 2 → Nat) a + S1x1.size a ≤ S2x64.size a
  inb_S2x64_S1x1_1_27 : ∀ a, (![1, 27] : Fin 2 → Nat) a + S1x1.size a ≤ S2x64.size a
  inb_S2x64_S1x1_1_28 : ∀ a, (![1, 28] : Fin 2 → Nat) a + S1x1.size a ≤ S2x64.size a
  inb_S2x64_S1x1_1_29 : ∀ a, (![1, 29] : Fin 2 → Nat) a + S1x1.size a ≤ S2x64.size a
  inb_S2x64_S1x1_1_30 : ∀ a, (![1, 30] : Fin 2 → Nat) a + S1x1.size a ≤ S2x64.size a
  inb_S2x64_S1x1_1_31 : ∀ a, (![1, 31] : Fin 2 → Nat) a + S1x1.size a ≤ S2x64.size a
  inb_S2x64_S1x1_1_32 : ∀ a, (![1, 32] : Fin 2 → Nat) a + S1x1.size a ≤ S2x64.size a
  inb_S2x64_S1x1_1_33 : ∀ a, (![1, 33] : Fin 2 → Nat) a + S1x1.size a ≤ S2x64.size a
  inb_S2x64_S1x1_1_34 : ∀ a, (![1, 34] : Fin 2 → Nat) a + S1x1.size a ≤ S2x64.size a
  inb_S2x64_S1x1_1_35 : ∀ a, (![1, 35] : Fin 2 → Nat) a + S1x1.size a ≤ S2x64.size a
  inb_S2x64_S1x1_1_36 : ∀ a, (![1, 36] : Fin 2 → Nat) a + S1x1.size a ≤ S2x64.size a
  inb_S2x64_S1x1_1_37 : ∀ a, (![1, 37] : Fin 2 → Nat) a + S1x1.size a ≤ S2x64.size a
  inb_S2x64_S1x1_1_38 : ∀ a, (![1, 38] : Fin 2 → Nat) a + S1x1.size a ≤ S2x64.size a
  inb_S2x64_S1x1_1_39 : ∀ a, (![1, 39] : Fin 2 → Nat) a + S1x1.size a ≤ S2x64.size a
  inb_S2x64_S1x1_1_40 : ∀ a, (![1, 40] : Fin 2 → Nat) a + S1x1.size a ≤ S2x64.size a
  inb_S2x64_S1x1_1_41 : ∀ a, (![1, 41] : Fin 2 → Nat) a + S1x1.size a ≤ S2x64.size a
  inb_S2x64_S1x1_1_42 : ∀ a, (![1, 42] : Fin 2 → Nat) a + S1x1.size a ≤ S2x64.size a
  inb_S2x64_S1x1_1_43 : ∀ a, (![1, 43] : Fin 2 → Nat) a + S1x1.size a ≤ S2x64.size a
  inb_S2x64_S1x1_1_44 : ∀ a, (![1, 44] : Fin 2 → Nat) a + S1x1.size a ≤ S2x64.size a
  inb_S2x64_S1x1_1_45 : ∀ a, (![1, 45] : Fin 2 → Nat) a + S1x1.size a ≤ S2x64.size a
  inb_S2x64_S1x1_1_46 : ∀ a, (![1, 46] : Fin 2 → Nat) a + S1x1.size a ≤ S2x64.size a
  inb_S2x64_S1x1_1_47 : ∀ a, (![1, 47] : Fin 2 → Nat) a + S1x1.size a ≤ S2x64.size a
  inb_S2x64_S1x1_1_48 : ∀ a, (![1, 48] : Fin 2 → Nat) a + S1x1.size a ≤ S2x64.size a
  inb_S2x64_S1x1_1_49 : ∀ a, (![1, 49] : Fin 2 → Nat) a + S1x1.size a ≤ S2x64.size a
  inb_S2x64_S1x1_1_50 : ∀ a, (![1, 50] : Fin 2 → Nat) a + S1x1.size a ≤ S2x64.size a
  inb_S2x64_S1x1_1_51 : ∀ a, (![1, 51] : Fin 2 → Nat) a + S1x1.size a ≤ S2x64.size a
  inb_S2x64_S1x1_1_52 : ∀ a, (![1, 52] : Fin 2 → Nat) a + S1x1.size a ≤ S2x64.size a
  inb_S2x64_S1x1_1_53 : ∀ a, (![1, 53] : Fin 2 → Nat) a + S1x1.size a ≤ S2x64.size a
  inb_S2x64_S1x1_1_54 : ∀ a, (![1, 54] : Fin 2 → Nat) a + S1x1.size a ≤ S2x64.size a
  inb_S2x64_S1x1_1_55 : ∀ a, (![1, 55] : Fin 2 → Nat) a + S1x1.size a ≤ S2x64.size a
  inb_S2x64_S1x1_1_56 : ∀ a, (![1, 56] : Fin 2 → Nat) a + S1x1.size a ≤ S2x64.size a
  inb_S2x64_S1x1_1_57 : ∀ a, (![1, 57] : Fin 2 → Nat) a + S1x1.size a ≤ S2x64.size a
  inb_S2x64_S1x1_1_58 : ∀ a, (![1, 58] : Fin 2 → Nat) a + S1x1.size a ≤ S2x64.size a
  inb_S2x64_S1x1_1_59 : ∀ a, (![1, 59] : Fin 2 → Nat) a + S1x1.size a ≤ S2x64.size a
  inb_S2x64_S1x1_1_60 : ∀ a, (![1, 60] : Fin 2 → Nat) a + S1x1.size a ≤ S2x64.size a
  inb_S2x64_S1x1_1_61 : ∀ a, (![1, 61] : Fin 2 → Nat) a + S1x1.size a ≤ S2x64.size a
  inb_S2x64_S1x1_1_62 : ∀ a, (![1, 62] : Fin 2 → Nat) a + S1x1.size a ≤ S2x64.size a
  inb_S2x64_S1x1_1_63 : ∀ a, (![1, 63] : Fin 2 → Nat) a + S1x1.size a ≤ S2x64.size a
  slices_S2x64_S1x64_0_0 : S2x64.Slices ![0, 0] S1x64
  shapeCasts_S1x64_S64 : S1x64.ShapeCasts S64
  slices_S2x64_S1x64_1_0 : S2x64.Slices ![1, 0] S1x64
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .i32 = 32 ∨ (Rect.block (s := S65536x128) S1024x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)

variable [Facts₀]

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x8 : Shape := ⟨2, ![1048576, 8]⟩
abbrev S_ : Shape := ⟨0, ![]⟩
abbrev S64 : Shape := ⟨1, ![64]⟩
abbrev S8388608 : Shape := ⟨1, ![8388608]⟩
abbrev S8388608x1 : Shape := ⟨2, ![8388608, 1]⟩

abbrev nBuf : Space → Nat
  | .hbm => 36
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x8, .i32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S8388608, .i32⟩
  | .hbm, ⟨8, _⟩ => ⟨S_, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S_, .i32⟩
  | .hbm, ⟨15, _⟩ => ⟨S8388608, .i32⟩
  | .hbm, ⟨16, _⟩ => ⟨S8388608, .i1⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608, .i32⟩
  | .hbm, ⟨21, _⟩ => ⟨S8388608x1, .i32⟩
  | .hbm, ⟨22, _⟩ => ⟨S_, .i32⟩
  | .hbm, ⟨23, _⟩ => ⟨S8388608, .i32⟩
  | .hbm, ⟨24, _⟩ => ⟨S64, .i32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  reducesTo_S1048576x64_S64_d0 : S1048576x64.ReducesTo [0] S64
  h_S_ : 0 < S_.numel
  bcast_S_S64 : S_.BroadcastsInDim S64 (![] : Fin 0 → Fin S64.rank)
  shapeCasts_S1048576x8_S8388608 : S1048576x8.ShapeCasts S8388608
  bcast_S_S8388608 : S_.BroadcastsInDim S8388608 (![] : Fin 0 → Fin S8388608.rank)
  bcast_S8388608_S8388608x1_0 : S8388608.BroadcastsInDim S8388608x1 (![0] : Fin 1 → Fin S8388608x1.rank)
  reducesTo_S64_S_d0 : S64.ReducesTo [0] S_
  scatter_S64_S8388608x1_S8388608_n_0_0_1_wf : ScatterDims.WF S64 S8388608x1 S8388608 [] [0] [0] 1

variable [Facts₀]

def scatter_S64_S8388608x1_S8388608_n_0_0_1 : ScatterDims S64 S8388608x1 S8388608 where
  updateWindowDims := []
  insertedWindowDims := [0]
  scatterDimsToOperandDims := [0]
  indexVectorDim := 1
  wf := scatter_S64_S8388608x1_S8388608_n_0_0_1_wf

class Facts : Prop extends Facts₀ where

variable [Facts]
-- ==== Proof.Pieces.lean ====
/-
  The stores one grid point makes into the [2, 64] accumulator block, as a list built by recursion on the expert
  number.

  At every grid point the kernel body makes one store into row 0 (the running column sums of the probability block
  plus this block's column sums) and, for each expert e = 0 … 63 in turn, one store into the single cell (1, e) (the
  running count plus the number of entries of the index block equal to e).  At the first point it zero-fills the
  whole block first, so every later load reads through the stores made so far.

  `listB` (a point other than the first: every load reads the block as the point found it) and `listA` (the first
  point: every load is a read through the earlier stores, the zero fill underneath) spell these store lists, last
  store first, by recursion on the number of experts already handled; the lists the body's run finds are these at 64.
-/
import proofs.«430835_j57621281243501_1_alg».proof.Proof.Gen.KernelIdeal.Frame

set_option maxRecDepth 65536

noncomputable section

open Idealize.ShloMosaic Idealize.ShloMosaic.TcCoe Idealize.SL.Sem

namespace Cert.KernelIdeal.Acc

open Cert.KernelIdeal Cert.KernelIdeal.Gen

variable {F : FTy → Type} [FloatOps F]

/-- How many entries of an index block equal `e`, as the body computes it: compare with the splat of `e`, widen
    the bit, convert to a float, sum over both axes, and splat the one number to a [1, 1] vector. -/
def cntVec (e : BitVec 32) (v : IVec S1024x128 32) : FVec F S1x1 .f32 :=
  broadcast S1x1 (extractAt ![0, 0, 0]
    (shapeCast S1x1x1
      (multiReduction .add [1, 2] S1
        (shapeCast S1x1024x128 (sitofp .f32 (extui 32 (cmpi .eq v (broadcast S1024x128 e)) natLt_1_32))
          shapeCasts_S1024x128_S1x1024x128)
        0x00000000#32 reduces_S1x1024x128_S1 (.inl rfl) rfl)
      shapeCasts_S1_S1x1x1) inpos_S1x1x1_p0_0_0)

/-- What the body stores at cell (1, e): the cell's old contents plus the count. -/
def cntPay (e : BitVec 32) (v : IVec S1024x128 32) (old : Vec F S1x1 .f32) : FVec F S1x1 .f32 :=
  addf (shapeCast S1x1 old shapeCasts_S1x1_S1x1) (cntVec e v)

/-- The cell (1, k) of the accumulator block lies inside it. -/
theorem inbC (k : ℕ) (hk : k < 64) : ∀ a, (![1, k] : Fin 2 → Nat) a + S1x1.size a ≤ S2x64.size a := by
  intro a
  match a with
  | ⟨0, _⟩ => show 1 + 1 ≤ 2; omega
  | ⟨1, _⟩ => show k + 1 ≤ 64; omega

/-- The one-cell rectangle at (1, k). -/
abbrev rectC (k : ℕ) (hk : k < 64) : Rect S2x64 := Rect.unit ![1, k] S1x1.size (inbC k hk)

/-- Row 0 of the accumulator block. -/
abbrev rectR : Rect S2x64 := Rect.unit ![0, 0] S1x64.size inb_S2x64_S1x64_0_0

/-- The index block as the body's compares see it (loaded whole, cast to its own shape). -/
abbrev idxv (a2 : Memref sig .tc .vmem S1024x128 .i32) (h2 : a2.IsWhole) (x1 : Vec F S1024x128 .i32) : IVec S1024x128 32 :=
  k0_pay4 (View.readAt (Elt F) a2.view (Rect.unit ![0, 0] S1024x128.size inb_S1024x128_S1024x128_0_0).toLoadRect (h2.unread x1))

/-- The probability block as loaded whole. -/
abbrev prbv (a1 : Memref sig .tc .vmem S16384x64 .f32) (h1 : a1.IsWhole) (x0 : Vec F S16384x64 .f32) : Vec F S16384x64 .f32 :=
  View.readAt (Elt F) a1.view (Rect.unit ![0, 0] S16384x64.size inb_S16384x64_S16384x64_0_0).toLoadRect (h1.unread x0)

section
variable (a1 : Memref sig .tc .vmem S16384x64 .f32) (h1 : a1.IsWhole)
  (a2 : Memref sig .tc .vmem S1024x128 .i32) (h2 : a2.IsWhole)
  (a3 : Memref sig .tc .vmem S2x64 .f32) (h3 : a3.IsWhole)
  (x0 : Vec F S16384x64 .f32) (x1 : Vec F S1024x128 .i32) (xo : Vec F S2x64 .f32)

/-- The stores of a point other than the first, after the experts below `k`: every load reads `xo`, what the
    point before left. -/
def listB : (k : ℕ) → k ≤ 64 → List (View.Piece (Elt F) S2x64 .f32)
  | 0, _ => [⟨rectR, k0_pay3 (prbv a1 h1 x0) (View.readAt (Elt F) a3.view rectR.toLoadRect (h3.unread xo))⟩]
  | k + 1, h => ⟨rectC k (by omega), cntPay (BitVec.ofNat 32 k) (idxv a2 h2 x1)
        (View.readAt (Elt F) a3.view (rectC k (by omega)).toLoadRect (h3.unread xo))⟩ :: listB k (by omega)

/-- The zero fill of the whole block. -/
abbrev zeroPiece : View.Piece (Elt F) S2x64 .f32 := ⟨Rect.unit ![0, 0] S2x64.size inb_S2x64_S2x64_0_0, k0_pay2⟩

/-- The stores of the first point, after the experts below `k`: the zero fill first, and every load a read through
    the stores made before it. -/
def listA : (k : ℕ) → k ≤ 64 → List (View.Piece (Elt F) S2x64 .f32)
  | 0, _ => [⟨rectR, k0_pay3 (prbv a1 h1 x0) (a3.view.readCov [zeroPiece] rectR.toLoadRect)⟩, zeroPiece]
  | k + 1, h => ⟨rectC k (by omega), cntPay (BitVec.ofNat 32 k) (idxv a2 h2 x1)
        (a3.view.readCov (listA k (by omega)) (rectC k (by omega)).toLoadRect)⟩ :: listA k (by omega)

end

/-- The stores the body's run finds at a point other than the first are `listB` at 64. -/
theorem runB_list (c : Dev nD) (i : grid0.Coords) (a1 : Memref sig .tc .vmem S16384x64 .f32) (h1 : a1.IsWhole)
    (a2 : Memref sig .tc .vmem S1024x128 .i32) (h2 : a2.IsWhole) (a3 : Memref sig .tc .vmem S2x64 .f32) (h3 : a3.IsWhole)
    (hc : ¬cond0_0 i) (x0 : Vec F S16384x64 .f32) (x1 : Vec F S1024x128 .i32) (xo : Vec F S2x64 .f32) :
    (kernelRun0_B c i a1 h1 a2 h2 a3 h3 hc x0 x1 xo).1 = listB a1 h1 a2 h2 a3 h3 x0 x1 xo 64 (le_refl _) := rfl

/-- The stores the body's run finds at the first point are `listA` at 64. -/
theorem runA_list (c : Dev nD) (i : grid0.Coords) (a1 : Memref sig .tc .vmem S16384x64 .f32) (h1 : a1.IsWhole)
    (a2 : Memref sig .tc .vmem S1024x128 .i32) (h2 : a2.IsWhole) (a3 : Memref sig .tc .vmem S2x64 .f32) (h3 : a3.IsWhole)
    (hc : cond0_0 i) (x0 : Vec F S16384x64 .f32) (x1 : Vec F S1024x128 .i32) :
    (kernelRun0_A c i a1 h1 a2 h2 a3 h3 hc x0 x1).1 = listA a1 h1 a2 h2 a3 x0 x1 64 (le_refl _) := rfl

end Cert.KernelIdeal.Acc

end
-- ==== Proof.Spec.lean ====
/-
  What both programs compute from the two argument arrays, before their common closing arithmetic.

  `A` is the [1048576, 64] array of router probabilities and `I` the [1048576, 8] array of chosen expert numbers.
  For an expert `e` (0 ≤ e < 64):
    * `colSum A e` is the sum of column `e` of `A` over all rows;
    * `count I e` is the number of entries of `I` equal to `e`, as a sum of indicators (1 where the entry is `e`,
      else 0) over all rows and all eight columns.
  The sums are sums of extended reals: addition there is commutative and associative, so regrouping them needs no
  finiteness.
-/
import Idealize.ShloMosaic.PureOps.Ideal
import Idealize.ShloMosaic.Lib.ValueIdx
import Mathlib.Algebra.BigOperators.Fin

noncomputable section

open Idealize.ShloMosaic Idealize.ShloMosaic.ValueIdx

namespace Cert.Spec

/-- The shape of the probability array. -/
abbrev SA : Shape := ⟨2, ![1048576, 64]⟩
/-- The shape of the index array. -/
abbrev SI : Shape := ⟨2, ![1048576, 8]⟩

/-- The indicator that an index word `b` is the expert number `e`: 1 if so, else 0. -/
def ind (b e : BitVec 32) : EReal := if b = e then 1 else 0

/-- Column `e` of the probability array, summed over all rows. -/
def colSum (A : SA.Idx → EReal) (e : Fin 64) : EReal := ∑ R : Fin 1048576, A (ix2 R e)

/-- How many entries of the index array are the expert number `e`. -/
def count (I : SI.Idx → BitVec 32) (e : Fin 64) : EReal :=
  ∑ R : Fin 1048576, ∑ k : Fin 8, ind (I (ix2 R k)) (BitVec.ofNat 32 e.val)

end Cert.Spec

end
-- ==== Proof.Count.lean ====
/-
  The count the body adds to cell (1, e), at the exact instance.

  For an index block `v` and an expert word `e` the body compares every entry with `e`, widens the resulting bit to a
  32-bit word, converts it to a float, and sums over both axes of the block.  Over the extended reals a widened bit
  converts to 1 or 0 exactly, and the sum over both axes into a one-element result is the sum over every entry of the
  block: so the body's number is the sum of the indicators "entry = e".
-/
import proofs.«430835_j57621281243501_1_alg».proof.Proof.Pieces
import proofs.«430835_j57621281243501_1_alg».proof.Proof.Spec
import Idealize.ShloMosaic.PureOps.Ideal.Laws
import Idealize.ShloMosaic.Lib.Pipeline.Value

set_option maxRecDepth 65536

noncomputable section

open Idealize.ShloMosaic Idealize.ShloMosaic.TcCoe Idealize.SL.Sem

namespace Cert.KernelIdeal.Acc

open Cert.KernelIdeal Cert.KernelIdeal.Gen

/-- A splat read at any index is the splatted value. -/
theorem broadcast_apply {α : Type} (t : Shape) (s : α) (x : t.Idx) : broadcast t s x = s := rfl

/-- Reshape, sum over axes that leave a result of one-element axes, reshape again and extract one position: at the
    exact instance this is the sum of every entry of the source, whatever the shapes — both reshapes only re-index. -/
theorem extract_total {s s' t t' : Shape} {axes : List (Fin s'.rank)} (src : FVec Ideal s .f32) (hc : s.ShapeCasts s')
    (acc : BitVec 32) (hr : s'.Reduces axes t) (hφ : FKind.Formats .f32) (hacc : acc = FKind.add.neutral .f32 hφ)
    (ht : ∀ b, t.size b = 1) (hc' : t.ShapeCasts t') (pos : Fin t'.rank → Nat) (hp : ∀ a, pos a < t'.size a) :
    extractAt pos (shapeCast t' (multiReduction .add axes t (shapeCast s' src hc) acc hr hφ hacc) hc') hp
      = ∑ i : s.Idx, src i := by
  unfold extractAt shapeCast
  rw [Ideal.multiReduction_add_total _ _ _ ht]
  exact Equiv.sum_comp (Shape.reshapeEquiv hc) src

/-- A compare bit, widened to 32 bits and read as a signed integer, is 1 when the two words are equal and 0 when
    they are not. -/
theorem widen_eq (a e : BitVec 32) :
    (((IntOp.cmpi .eq a e).setWidth 32).toInt : ℝ) = if a = e then 1 else 0 := by
  unfold IntOp.cmpi
  by_cases h : a = e
  · subst h; simp
  · have hb : (a == e) = false := by simpa using h
    simp [h, hb]

/-- One entry's compare-widen-convert is the indicator that the entry is `e`. -/
theorem oneHot_apply (e : BitVec 32) (v : IVec S1024x128 32) (i : S1024x128.Idx) :
    (sitofp .f32 (extui 32 (cmpi .eq v (broadcast S1024x128 e)) natLt_1_32) : FVec Ideal S1024x128 .f32) i
      = Cert.Spec.ind (v i) e := by
  show (((((IntOp.cmpi .eq (v i) e).setWidth 32).toInt : ℝ)) : EReal) = _
  rw [widen_eq]
  unfold Cert.Spec.ind
  split <;> simp

/-- The body's count for `e` over the index block `v` is the sum of the indicators "entry = e". -/
theorem cntVec_apply (e : BitVec 32) (v : IVec S1024x128 32) (x : S1x1.Idx) :
    cntVec (F := Ideal) e v x = ∑ i : S1024x128.Idx, Cert.Spec.ind (v i) e := by
  unfold cntVec
  rw [broadcast_apply]
  refine (extract_total _ _ _ _ _ _ (fun b => by fin_cases b; rfl) _ _ _).trans ?_
  exact Finset.sum_congr rfl fun i _ => oneHot_apply e v i

/-- What the body stores at cell (1, e), at the exact instance: the old value plus that sum. -/
theorem cntPay_apply (e : BitVec 32) (v : IVec S1024x128 32) (old : Vec Ideal S1x1 .f32) (x : S1x1.Idx) :
    cntPay (F := Ideal) e v old x = old x + ∑ i : S1024x128.Idx, Cert.Spec.ind (v i) e := by
  unfold cntPay
  show shapeCast S1x1 old shapeCasts_S1x1_S1x1 x + cntVec (F := Ideal) e v x = _
  rw [shapeCast_self, cntVec_apply]

end Cert.KernelIdeal.Acc

end
-- ==== Proof.StepValue.lean ====
/-
  What one grid point leaves in the [2, 64] accumulator block, at the exact instance.

  With `X` the point's [16384, 64] block of probabilities, `v` its [1024, 128] block of expert numbers and `xo` what
  the accumulator held before the point, the point leaves `xo + contrib X v`: cell (0, e) gains the sum of column e
  of `X`, cell (1, e) gains the number of entries of `v` equal to e.  At the first point the body zero-fills the block
  first, so it leaves `0 + contrib X v`.

  A point other than the first: each of its 65 stores is the block, at the store's rectangle, of that one function,
  so the stores read back as the function wherever they cover.  The first point: by induction on the number of experts
  handled, the stores made so far read back as "zero, plus the contribution on the cells already stored"; each new
  load reads that back through the earlier stores.
-/
import proofs.«430835_j57621281243501_1_alg».proof.Proof.Pieces
import proofs.«430835_j57621281243501_1_alg».proof.Proof.Count
import proofs.«430835_j57621281243501_1_alg».proof.Proof.Spec
import Idealize.ShloMosaic.Lib.Pipeline.Value
import Idealize.ShloMosaic.Lib.ValueIdx
import Idealize.ShloMosaic.PureOps.Ideal.Laws

set_option maxRecDepth 65536

noncomputable section

open Idealize.ShloMosaic Idealize.ShloMosaic.TcCoe Idealize.SL.Sem Idealize.ShloMosaic.ValueIdx

namespace Cert.KernelIdeal.Acc

open Cert.KernelIdeal Cert.KernelIdeal.Gen

theorem hz : (![0, 0] : Fin 2 → Nat) = fun _ => 0 := funext fun a => by fin_cases a <;> rfl

/-- What one point adds at accumulator cell `y`: in row 0 the column sum of the probability block, in row 1 the
    number of entries of the index block equal to the cell's column. -/
def contrib (X : Vec Ideal S16384x64 .f32) (v : IVec S1024x128 32) (y : S2x64.Idx) : EReal :=
  if (y 0).val = 0 then ∑ r : Fin 16384, X (ix2 r (y 1))
  else ∑ i : S1024x128.Idx, Cert.Spec.ind (v i) (BitVec.ofNat 32 (y 1).val)

/-- What one point leaves, over what the accumulator held before it. -/
def stepFn (X : Vec Ideal S16384x64 .f32) (v : IVec S1024x128 32) (xo : Vec Ideal S2x64 .f32) : Vec Ideal S2x64 .f32 :=
  fun y => xo y + contrib X v y

/-! ## The payloads at an index -/

/-- The row-0 store's value: the old row plus the column sums of the probability block. -/
theorem rowPay_apply (X : Vec Ideal S16384x64 .f32) (old : Vec Ideal S1x64 .f32) (x : S1x64.Idx) :
    k0_pay3 (F := Ideal) X old x = old x + ∑ r : Fin 16384, X (ix2 r (x 1)) := by
  unfold k0_pay3
  show shapeCast S1x64 old shapeCasts_S1x64_S1x64 x
      + shapeCast S1x64 (multiReduction (F := Ideal) .add [0] S64 X 0x00000000#32 reduces_S16384x64_S64 (.inl rfl) rfl)
          shapeCasts_S64_S1x64 x = _
  rw [shapeCast_self, shapeCast_addUnit_apply]
  refine congrArg (old x + ·) ?_
  refine (Ideal.multiReduction_add_single X 0x00000000#32 reduces_S16384x64_S64 (.inl rfl) rfl (fun a => x a.succ)).trans ?_
  refine Finset.sum_congr rfl fun r _ => congrArg X ?_
  funext a
  match a with
  | ⟨0, _⟩ => rfl
  | ⟨1, _⟩ => rfl

/-! ## The stores' rectangles -/

/-- Membership in the one-cell rectangle at (1, k). -/
theorem mem_rectC (k : ℕ) (hk : k < 64) (y : S2x64.Idx) : y ∈ (rectC k hk).set ↔ (y 0).val = 1 ∧ (y 1).val = k := by
  rw [Rect.mem_set_unit]
  constructor
  · intro h
    have h0 := h 0
    have h1 := h 1
    have e0 : (![1, k] : Fin 2 → Nat) 0 = 1 := rfl
    have e1 : (![1, k] : Fin 2 → Nat) 1 = k := rfl
    have s0 : S1x1.size 0 = 1 := rfl
    have s1 : S1x1.size 1 = 1 := rfl
    rw [e0, s0] at h0
    rw [e1, s1] at h1
    exact ⟨by omega, by omega⟩
  · rintro ⟨h0, h1⟩ a
    match a with
    | ⟨0, _⟩ => show 1 ≤ (y 0).val ∧ (y 0).val < 1 + 1; omega
    | ⟨1, _⟩ => show k ≤ (y 1).val ∧ (y 1).val < k + 1; omega

/-- Membership in row 0. -/
theorem mem_rectR (y : S2x64.Idx) : y ∈ rectR.set ↔ (y 0).val = 0 := by
  rw [Rect.mem_set_unit]
  constructor
  · intro h
    have h0 := h 0
    have e0 : (![0, 0] : Fin 2 → Nat) 0 = 0 := rfl
    have s0 : S1x64.size 0 = 1 := rfl
    rw [e0, s0] at h0
    omega
  · intro h0 a
    match a with
    | ⟨0, _⟩ => show 0 ≤ (y 0).val ∧ (y 0).val < 0 + 1; omega
    | ⟨1, _⟩ => show 0 ≤ (y 1).val ∧ (y 1).val < 0 + 64; have := idx2_lt1 y; omega

/-- The one cell of the rectangle at (1, k), as an index of the block. -/
theorem rectC_emb (k : ℕ) (hk : k < 64) (x : (rectC k hk).shape.Idx) :
    (rectC k hk).emb x = ix2 (1 : Fin 2) (⟨k, hk⟩ : Fin 64) := by
  have h0 : (x 0).val < 1 := (x 0).isLt
  have h1 : (x 1).val < 1 := (x 1).isLt
  funext a
  apply Fin.ext
  match a with
  | ⟨0, _⟩ => show 1 + 1 * (x 0).val = 1; omega
  | ⟨1, _⟩ => show k + 1 * (x 1).val = k; omega

/-- A cell of row 0, as an index of the block. -/
theorem rectR_emb (x : rectR.shape.Idx) :
    rectR.emb x = ix2 (0 : Fin 2) (⟨(x 1).val, (x 1).isLt⟩ : Fin 64) := by
  have h0 : (x 0).val < 1 := (x 0).isLt
  funext a
  apply Fin.ext
  match a with
  | ⟨0, _⟩ => show 0 + 1 * (x 0).val = 0; omega
  | ⟨1, _⟩ => show 0 + 1 * (x 1).val = (x 1).val; omega

theorem contrib_row (X : Vec Ideal S16384x64 .f32) (v : IVec S1024x128 32) (b : Fin 64) :
    contrib X v (ix2 (0 : Fin 2) b) = ∑ r : Fin 16384, X (ix2 r b) := if_pos rfl

theorem contrib_cell (X : Vec Ideal S16384x64 .f32) (v : IVec S1024x128 32) (b : Fin 64) :
    contrib X v (ix2 (1 : Fin 2) b) = ∑ i : S1024x128.Idx, Cert.Spec.ind (v i) (BitVec.ofNat 32 b.val) :=
  if_neg (by show ¬((1 : Fin 2).val = 0); decide)

/-! ## Loads -/

section
variable (a1 : Memref sig .tc .vmem S16384x64 .f32) (h1 : a1.IsWhole)
  (a2 : Memref sig .tc .vmem S1024x128 .i32) (h2 : a2.IsWhole)
  (a3 : Memref sig .tc .vmem S2x64 .f32) (h3 : a3.IsWhole)
  (x0 : Vec Ideal S16384x64 .f32) (x1 : Vec Ideal S1024x128 .i32) (xo : Vec Ideal S2x64 .f32)

/-- A load of the accumulator block through a rectangle, before any store, reads what the block held. -/
theorem load_unread (R : Rect S2x64) (x : R.shape.Idx) :
    View.readAt (Elt Ideal) a3.view R.toLoadRect (h3.unread xo) x = xo (R.emb x) := by
  rw [View.readAt_eq_ld, h3.read_unread]
  rfl

/-- The probability block loaded whole is the block. -/
theorem prbv_eq : prbv (F := Ideal) a1 h1 x0 = x0 := by
  unfold prbv
  rw [View.readAt_eq_ld, h1.read_unread, View.ld_unit_zero (S := S16384x64) hz]

/-- The index block loaded whole and cast to its own shape is the block. -/
theorem idxv_eq : idxv (F := Ideal) a2 h2 x1 = x1 := by
  unfold idxv k0_pay4
  rw [View.readAt_eq_ld, h2.read_unread, View.ld_unit_zero (S := S1024x128) hz, shapeCast_self]

/-- The zero fill's value. -/
theorem zero_apply (y : S2x64.Idx) : k0_pay2 (F := Ideal) y = 0 := Ideal.ofBits_zero_f32

/-! ## A point other than the first -/

/-- Every store of such a point is, on its rectangle, the one function `stepFn` of the block's index. -/
theorem piecesB : ∀ (k : ℕ) (hk : k ≤ 64), ∀ p ∈ listB (F := Ideal) a1 h1 a2 h2 a3 h3 x0 x1 xo k hk, ∀ x : p.1.shape.Idx,
    p.2 x = stepFn (prbv a1 h1 x0) (idxv a2 h2 x1) xo (p.1.emb x)
  | 0, _ => by
    intro p hp x
    rw [listB, List.mem_singleton] at hp
    subst hp
    show k0_pay3 (F := Ideal) (prbv a1 h1 x0) (View.readAt (Elt Ideal) a3.view rectR.toLoadRect (h3.unread xo)) x
      = stepFn (prbv a1 h1 x0) (idxv a2 h2 x1) xo (rectR.emb x)
    rw [rowPay_apply, load_unread, rectR_emb]
    unfold stepFn
    rw [contrib_row]
    rfl
  | k + 1, hk => by
    intro p hp x
    rw [listB] at hp
    rcases List.mem_cons.mp hp with rfl | hp'
    · show cntPay (F := Ideal) (BitVec.ofNat 32 k) (idxv a2 h2 x1)
          (View.readAt (Elt Ideal) a3.view (rectC k (by omega)).toLoadRect (h3.unread xo)) x
        = stepFn (prbv a1 h1 x0) (idxv a2 h2 x1) xo ((rectC k (by omega)).emb x)
      rw [cntPay_apply, load_unread, rectC_emb]
      unfold stepFn
      rw [contrib_cell]
    · exact piecesB k (by omega) p hp' x

/-- What a point other than the first leaves: the accumulator's old contents plus the point's contribution. -/
theorem out_B (c : Dev nD) (i : grid0.Coords) (hc : ¬cond0_0 i) :
    out0_B_2 (F := Ideal) c i a1 h1 a2 h2 a3 h3 hc x0 x1 xo = stepFn x0 x1 xo := by
  unfold out0_B_2
  rw [View.read_writes_eq_canon _ _ _ (cover0_B_2 c i a1 h1 a2 h2 a3 h3 hc x0 x1 xo)]
  funext y
  have hcov := cover0_B_2 (F := Ideal) c i a1 h1 a2 h2 a3 h3 hc x0 x1 xo y
  rw [runB_list] at hcov ⊢
  rw [View.canon_apply_of_pieces _ _ (piecesB a1 h1 a2 h2 a3 h3 x0 x1 xo 64 (le_refl _)) y hcov, prbv_eq, idxv_eq]

/-! ## The first point -/

/-- Zero, plus the contribution on the cells the first point has stored after the experts below `k`. -/
def GA (X : Vec Ideal S16384x64 .f32) (v : IVec S1024x128 32) (k : ℕ) : Vec Ideal S2x64 .f32 := fun y =>
  if (y 0).val = 0 then 0 + ∑ r : Fin 16384, X (ix2 r (y 1))
  else if (y 1).val < k then 0 + ∑ i : S1024x128.Idx, Cert.Spec.ind (v i) (BitVec.ofNat 32 (y 1).val) else 0

theorem GA_row (X : Vec Ideal S16384x64 .f32) (v : IVec S1024x128 32) (k : ℕ) (b : Fin 64) :
    GA X v k (ix2 (0 : Fin 2) b) = 0 + ∑ r : Fin 16384, X (ix2 r b) := if_pos rfl

theorem GA_cell (X : Vec Ideal S16384x64 .f32) (v : IVec S1024x128 32) (k : ℕ) (b : Fin 64) :
    GA X v k (ix2 (1 : Fin 2) b)
      = if b.val < k then 0 + ∑ i : S1024x128.Idx, Cert.Spec.ind (v i) (BitVec.ofNat 32 b.val) else 0 :=
  if_neg (by show ¬((1 : Fin 2).val = 0); decide)

/-- After the experts below `k` the first point's stores cover the block (the zero fill does) and read back as
    `GA k`: each new store's load reads `GA k` back through the earlier stores, finds zero at its own cell, and the
    store puts zero plus the count there. -/
theorem listA_spec : ∀ (k : ℕ) (hk : k ≤ 64),
    (∀ y, ∃ p ∈ listA (F := Ideal) a1 h1 a2 h2 a3 x0 x1 k hk, y ∈ p.1.set)
    ∧ View.canon (listA (F := Ideal) a1 h1 a2 h2 a3 x0 x1 k hk) = GA (prbv a1 h1 x0) (idxv a2 h2 x1) k
  | 0, _ => by
    have hcz : ∀ y : S2x64.Idx, ∃ p ∈ [(zeroPiece (F := Ideal))], y ∈ p.1.set := fun y =>
      ⟨_, List.mem_singleton_self _, View.mem_set_unit_zero hz inb_S2x64_S2x64_0_0 y⟩
    refine ⟨fun y => ⟨zeroPiece, by rw [listA]; simp, View.mem_set_unit_zero hz inb_S2x64_S2x64_0_0 y⟩, ?_⟩
    funext y
    rw [listA]
    by_cases hy : y ∈ rectR.set
    · obtain ⟨x, rfl⟩ := rectR.exists_idx_of_mem hy
      rw [show rectR.idx x = rectR.emb x from rfl, View.canon_cons_emb, rowPay_apply,
        View.readCov_eq_canon_ld _ _ _ hcz, View.canon_unit_zero hz]
      show k0_pay2 (F := Ideal) (rectR.emb x) + _ = _
      rw [zero_apply, rectR_emb, GA_row]
      rfl
    · rw [View.canon_cons_of_not_mem (y := y) _ _ (by exact hy), View.canon_unit_zero hz, zero_apply]
      unfold GA
      have h0 : ¬(y 0).val = 0 := fun h => hy ((mem_rectR y).mpr h)
      rw [if_neg h0, if_neg (Nat.not_lt_zero _)]
  | k + 1, hk => by
    obtain ⟨hcov, hcan⟩ := listA_spec k (by omega)
    have hk' : k < 64 := by omega
    refine ⟨fun y => ?_, ?_⟩
    · obtain ⟨p, hp, hy⟩ := hcov y
      exact ⟨p, by rw [listA]; exact List.mem_cons_of_mem _ hp, hy⟩
    funext y
    rw [listA]
    by_cases hy : y ∈ (rectC k hk').set
    · obtain ⟨x, rfl⟩ := (rectC k hk').exists_idx_of_mem hy
      rw [show (rectC k hk').idx x = (rectC k hk').emb x from rfl, View.canon_cons_emb, cntPay_apply,
        View.readCov_eq_canon_ld _ _ _ hcov, hcan]
      show GA (prbv a1 h1 x0) (idxv a2 h2 x1) k ((rectC k hk').emb x) + _ = _
      rw [rectC_emb, GA_cell, GA_cell, if_neg (show ¬(⟨k, hk'⟩ : Fin 64).val < k from lt_irrefl k),
        if_pos (show (⟨k, hk'⟩ : Fin 64).val < k + 1 from Nat.lt_succ_self k)]
    · rw [View.canon_cons_of_not_mem (y := y) _ _ (by exact hy), hcan]
      unfold GA
      by_cases h0 : (y 0).val = 0
      · rw [if_pos h0, if_pos h0]
      · rw [if_neg h0, if_neg h0]
        have hne : (y 1).val ≠ k := fun h =>
          hy ((mem_rectC k hk' y).mpr ⟨by have := idx2_lt0 y; omega, h⟩)
        by_cases hlt : (y 1).val < k
        · rw [if_pos hlt, if_pos (by omega)]
        · rw [if_neg hlt, if_neg (by omega)]

/-- With all 64 experts handled, that is zero plus the whole contribution. -/
theorem GA_full (X : Vec Ideal S16384x64 .f32) (v : IVec S1024x128 32) : GA X v 64 = stepFn X v (fun _ => 0) := by
  funext y
  unfold GA stepFn contrib
  dsimp only
  by_cases h0 : (y 0).val = 0
  · rw [if_pos h0, if_pos h0]
  · rw [if_neg h0, if_neg h0, if_pos (idx2_lt1 y)]

/-- What the first point leaves: zero plus the point's contribution. -/
theorem out_A (c : Dev nD) (i : grid0.Coords) (hc : cond0_0 i) :
    out0_A_2 (F := Ideal) c i a1 h1 a2 h2 a3 h3 hc x0 x1 = stepFn x0 x1 (fun _ => 0) := by
  unfold out0_A_2
  rw [View.read_writes_eq_canon _ _ _ (cover0_A_2 c i a1 h1 a2 h2 a3 h3 hc x0 x1), runA_list,
    (listA_spec a1 h1 a2 h2 a3 x0 x1 64 (le_refl _)).2, GA_full, prbv_eq, idxv_eq]

end

end Cert.KernelIdeal.Acc

end
-- ==== Proof.BlockSums.lean ====
/-
  Sums of extended reals over the two argument arrays, regrouped into consecutive blocks.

  A sum over n = a·b consecutive positions is the sum over a blocks of b positions each: position q is b·s + r
  with s the block and r the place inside it (the bijection Fin a × Fin b ≃ Fin (a·b)).  Extended-real addition is
  commutative and associative, so nothing else is needed.

  Two instances are stated over VARIABLE arrays A : [1048576, 64] and I : [1048576, 8]:

    * column e of A summed over all 1048576 rows is the sum, over 64 blocks of 16384 rows, of the block's part of
      the column (`colSum_blocks`);
    * the number of entries of I equal to e is the sum, over 64 blocks of 131072 consecutive entries in row-major
      order — each block read as a [1024, 128] array, entry (a, b) of block t being entry number
      128·(1024·t + a) + b of I, that is row (that number / 8), column (that number mod 8) — of the block's
      indicators (`count_blocks`).

  To move between index types of different spellings the summands are made total functions of a natural number
  (`colAt`, `indAt`: 0 past the end).
-/
import proofs.«430835_j57621281243501_1_alg».proof.Proof.Spec
import Mathlib.Algebra.BigOperators.Fin
import Mathlib.Logic.Equiv.Fin.Basic

noncomputable section

open Idealize.ShloMosaic Idealize.ShloMosaic.ValueIdx

namespace Cert.KernelIdeal.BlockSums

/-! ## A sum over a·b positions as a sum over blocks -/

/-- A sum over `n = a·b` consecutive naturals is the sum over `a` blocks of `b`: position `q` is `b·s + r`. -/
theorem sum_fin_mul {M : Type*} [AddCommMonoid M] (a b n : ℕ) (h : a * b = n) (f : ℕ → M) :
    ∑ q : Fin n, f q.val = ∑ s : Fin a, ∑ r : Fin b, f (b * s.val + r.val) := by
  subst h
  rw [← Equiv.sum_comp finProdFinEquiv (fun q : Fin (a * b) => f q.val), Fintype.sum_prod_type]
  refine Finset.sum_congr rfl fun s _ => Finset.sum_congr rfl fun r _ => ?_
  show f (r.val + b * s.val) = f (b * s.val + r.val)
  rw [Nat.add_comm]

/-- The same, the blocks counted along a range of naturals. -/
theorem sum_fin_mul_range {M : Type*} [AddCommMonoid M] (a b n : ℕ) (h : a * b = n) (f : ℕ → M) :
    ∑ q : Fin n, f q.val = ∑ s ∈ Finset.range a, ∑ r : Fin b, f (b * s + r.val) := by
  rw [sum_fin_mul a b n h f, Fin.sum_univ_eq_sum_range (fun s => ∑ r : Fin b, f (b * s + r.val)) a]

/-! ## The column sums -/

/-- Column `e` of `A` as a function of the row number, total on the naturals (0 past the last row). -/
def colAt (A : Cert.Spec.SA.Idx → EReal) (e : Fin 64) (n : ℕ) : EReal :=
  if h : n < 1048576 then A (ix2 ⟨n, h⟩ e) else 0

/-- Below the number of rows it is the array's entry. -/
theorem colAt_of_lt (A : Cert.Spec.SA.Idx → EReal) (e : Fin 64) (n : ℕ) (h : n < 1048576) :
    colAt A e n = A (ix2 ⟨n, h⟩ e) := dif_pos h

/-- The column sum as a sum of `colAt` over the row numbers. -/
theorem colSum_eq (A : Cert.Spec.SA.Idx → EReal) (e : Fin 64) :
    Cert.Spec.colSum A e = ∑ R : Fin 1048576, colAt A e R.val := by
  unfold Cert.Spec.colSum
  exact Finset.sum_congr rfl fun R _ => (colAt_of_lt A e R.val R.isLt).symm

/-- THE COLUMN SUM BY ROW BLOCKS: 64 blocks of 16384 rows, row `r` of block `s` being row `16384·s + r`. -/
theorem colSum_blocks (A : Cert.Spec.SA.Idx → EReal) (e : Fin 64) :
    ∑ s ∈ Finset.range 64, ∑ r : Fin 16384, colAt A e (16384 * s + r.val) = Cert.Spec.colSum A e := by
  rw [colSum_eq, sum_fin_mul_range 64 16384 1048576 (by norm_num) (colAt A e)]

/-! ## The counts -/

/-- The indicator of expert `e` at entry number `n` of `I` in row-major order (row `n / 8`, column `n % 8`), total
    on the naturals (0 past the last entry). -/
def indAt (I : Cert.Spec.SI.Idx → BitVec 32) (e : Fin 64) (n : ℕ) : EReal :=
  if h : n < 8388608 then
    Cert.Spec.ind (I (ix2 ⟨n / 8, by omega⟩ ⟨n % 8, Nat.mod_lt _ (by norm_num)⟩)) (BitVec.ofNat 32 e.val)
  else 0

/-- Below the number of entries it is the indicator of that entry. -/
theorem indAt_of_lt (I : Cert.Spec.SI.Idx → BitVec 32) (e : Fin 64) (n : ℕ) (h : n < 8388608)
    (h0 : n / 8 < 1048576) (h1 : n % 8 < 8) :
    indAt I e n = Cert.Spec.ind (I (ix2 ⟨n / 8, h0⟩ ⟨n % 8, h1⟩)) (BitVec.ofNat 32 e.val) := dif_pos h

/-- Entry `(R, k)` of `I` is entry number `8·R + k`. -/
theorem indAt_rowcol (I : Cert.Spec.SI.Idx → BitVec 32) (e : Fin 64) (R : Fin 1048576) (k : Fin 8) :
    indAt I e (8 * R.val + k.val) = Cert.Spec.ind (I (ix2 R k)) (BitVec.ofNat 32 e.val) := by
  have hR := R.isLt
  have hk := k.isLt
  have h0 : (8 * R.val + k.val) / 8 < 1048576 := by omega
  have h1 : (8 * R.val + k.val) % 8 < 8 := by omega
  rw [indAt_of_lt I e _ (by omega) h0 h1]
  have ea : (⟨(8 * R.val + k.val) / 8, h0⟩ : Fin 1048576) = R := Fin.ext (by show (8 * R.val + k.val) / 8 = R.val; omega)
  have eb : (⟨(8 * R.val + k.val) % 8, h1⟩ : Fin 8) = k := Fin.ext (by show (8 * R.val + k.val) % 8 = k.val; omega)
  rw [ea, eb]

/-- The count as a sum of `indAt` over the entry numbers. -/
theorem count_eq (I : Cert.Spec.SI.Idx → BitVec 32) (e : Fin 64) :
    Cert.Spec.count I e = ∑ q : Fin 8388608, indAt I e q.val := by
  unfold Cert.Spec.count
  rw [sum_fin_mul 1048576 8 8388608 (by norm_num) (indAt I e)]
  exact Finset.sum_congr rfl fun R _ => Finset.sum_congr rfl fun k _ => (indAt_rowcol I e R k).symm

/-- THE COUNT BY BLOCKS OF ENTRIES: 64 blocks, each a [1024, 128] array of consecutive entries, entry `(a, b)` of
    block `t` being entry number `128·(1024·t + a) + b`. -/
theorem count_blocks (I : Cert.Spec.SI.Idx → BitVec 32) (e : Fin 64) :
    ∑ t ∈ Finset.range 64, ∑ a : Fin 1024, ∑ b : Fin 128, indAt I e (128 * (1024 * t + a.val) + b.val)
      = Cert.Spec.count I e := by
  rw [count_eq, sum_fin_mul_range 64 131072 8388608 (by norm_num) (indAt I e)]
  refine Finset.sum_congr rfl fun t _ => ?_
  rw [sum_fin_mul 1024 128 131072 (by norm_num) (fun n => indAt I e (131072 * t + n))]
  refine Finset.sum_congr rfl fun a _ => Finset.sum_congr rfl fun b _ => ?_
  show indAt I e (128 * (1024 * t + a.val) + b.val) = indAt I e (131072 * t + (128 * a.val + b.val))
  congr 1
  omega

end Cert.KernelIdeal.BlockSums

end
-- ==== Proof.Blocks.lean ====
/-
  The kernel's input blocks as parts of the two whole argument arrays.

  The kernel's one pipelined call runs over 64 grid points.  At point t its first window holds the [16384, 64]
  block of the probability array A : [1048576, 64] with block index (t, 0): entry (r, e) of the block is
  A (16384·t + r, e).  Its second window holds the [1024, 128] block (t, 0) of the [65536, 128] reshape of the index
  array I : [1048576, 8]; the reshape keeps row-major positions, so entry (a, b) of the block is entry number
  128·(1024·t + a) + b of I, that is I (n / 8, n mod 8) for that number n.

  Summed over all points, the blocks' column sums are the column sums of A (`colSum_blocks`) and the blocks'
  indicator sums are the counts of I (`count_blocks`): the regrouping is BlockSums.lean's, over variable arrays,
  instantiated here at the launch memory's two arguments.
-/
import proofs.«430835_j57621281243501_1_alg».proof.Proof.Spec
import proofs.«430835_j57621281243501_1_alg».proof.Proof.BlockSums
import proofs.«430835_j57621281243501_1_alg».proof.Proof.Gen.KernelIdeal.Frame.Runs
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-! ## The block index maps, and the reshaped index array -/

/-- Window 0's block index at point `t` is `(t, 0)` — decided over the grid. -/
theorem idx0 : ∀ t : Fin grid0.N, win0_0.index t 0 = t.val ∧ win0_0.index t 1 = 0 := by decide +kernel
/-- Window 1's block index at point `t` is `(t, 0)` — decided over the grid. -/
theorem idx1 : ∀ t : Fin grid0.N, win0_1.index t 0 = t.val ∧ win0_1.index t 1 = 0 := by decide +kernel

/-- The pipeline runs over 64 points. -/
theorem N_eq : cfg0.N = 64 := N_0
/-- A grid point's number is below 64. -/
theorem t_lt (t : Fin cfg0.N) : t.val < 64 := lt_of_lt_of_eq t.isLt N_0

/-- The array window 1 stages is the [65536, 128] reshape of the index argument, made before the region. -/
theorem V_main_v0 (c : Dev nD) :
    (V m c main_v0 : Vec Ideal S65536x128 .i32)
      = shapeCast S65536x128 (m ((c.tc : Thread nD τ).loc main_arg1) : Vec Ideal S1048576x8 .i32)
          shapeCasts_S1048576x8_S65536x128 := by
  show StableHlo.after hostOps0 (fun b => m (c, b)) (Proc.devRef .tc main_v0) = _
  after_results
  rfl

/-! ## The blocks read at an index -/

/-- The probability block at point `t`, at its literal type. -/
abbrev pblk (c : Dev nD) (t : Fin cfg0.N) : Vec Ideal S16384x64 .f32 := iblk m c 0 t
/-- The index block at point `t`, at its literal type. -/
abbrev xblk (c : Dev nD) (t : Fin cfg0.N) : Vec Ideal S1024x128 .i32 := iblk m c 1 t

/-- Entry `(r, e)` of the probability block at point `t` is `A (16384·t + r, e)`. -/
theorem blk0_apply (c : Dev nD) (t : Fin cfg0.N) (r : Fin 16384) (e : Fin 64) (h : 16384 * t.val + r.val < 1048576) :
    pblk m c t (ix2 r e)
      = (m ((c.tc : Thread nD τ).loc main_arg0) : Vec Ideal S1048576x64 .f32) (ix2 ⟨16384 * t.val + r.val, h⟩ e) := by
  have hi := idx0 t
  unfold pblk iblk
  rw [View.read_apply]
  show V m c main_arg0 _ = m (c.tc.loc main_arg0) _
  rw [V_main_arg0]
  congr 1
  funext a
  apply Fin.ext
  match a with
  | ⟨0, _⟩ => show win0_0.index t 0 * 16384 + 1 * r.val = 16384 * t.val + r.val; rw [hi.1]; omega
  | ⟨1, _⟩ => show win0_0.index t 1 * 64 + 1 * e.val = e.val; rw [hi.2]; omega

/-- Entry `(a, b)` of the index block at point `t` is entry number `n = 128·(1024·t + a) + b` of the index argument in
    row-major order: `I (n / 8, n mod 8)`. -/
theorem blk1_apply (c : Dev nD) (t : Fin cfg0.N) (a : Fin 1024) (b : Fin 128)
    (h0 : (128 * (1024 * t.val + a.val) + b.val) / 8 < 1048576) (h1 : (128 * (1024 * t.val + a.val) + b.val) % 8 < 8) :
    xblk m c t (ix2 a b)
      = (m ((c.tc : Thread nD τ).loc main_arg1) : Vec Ideal S1048576x8 .i32)
          (ix2 ⟨(128 * (1024 * t.val + a.val) + b.val) / 8, h0⟩ ⟨(128 * (1024 * t.val + a.val) + b.val) % 8, h1⟩) := by
  have hi := idx1 t
  have ha := a.isLt
  have hb := b.isLt
  have ht := t_lt t
  unfold xblk iblk
  rw [View.read_apply]
  show V m c main_v0 _ = m (c.tc.loc main_arg1) _
  rw [V_main_v0]
  refine shapeCast_apply (s := S1048576x8) (t := S65536x128) _ _ _
    (ix2 ⟨(128 * (1024 * t.val + a.val) + b.val) / 8, h0⟩ ⟨(128 * (1024 * t.val + a.val) + b.val) % 8, h1⟩) ?_
  rw [Shape.rowMajor_val_two, Shape.rowMajor_val_two]
  show (128 * (1024 * t.val + a.val) + b.val) / 8 * 8 + (128 * (1024 * t.val + a.val) + b.val) % 8
    = (win0_1.index t 0 * 1024 + 1 * a.val) * 128 + (win0_1.index t 1 * 128 + 1 * b.val)
  rw [hi.1, hi.2]
  omega

/-- The probability block's entry as the column function of the row number. -/
theorem blk0_colAt (c : Dev nD) (t : Fin cfg0.N) (r : Fin 16384) (e : Fin 64) :
    pblk m c t (ix2 r e)
      = BlockSums.colAt (m ((c.tc : Thread nD τ).loc main_arg0)) e (16384 * t.val + r.val) := by
  have hr := r.isLt
  have ht := t_lt t
  have h : 16384 * t.val + r.val < 1048576 := by omega
  rw [blk0_apply m c t r e h, BlockSums.colAt_of_lt _ _ _ h]

/-- The index block's indicator at an entry as the indicator function of the entry number. -/
theorem blk1_indAt (c : Dev nD) (t : Fin cfg0.N) (a : Fin 1024) (b : Fin 128) (e : Fin 64) :
    Cert.Spec.ind (xblk m c t (ix2 a b)) (BitVec.ofNat 32 e.val)
      = BlockSums.indAt (m ((c.tc : Thread nD τ).loc main_arg1)) e (128 * (1024 * t.val + a.val) + b.val) := by
  have ha := a.isLt
  have hb := b.isLt
  have ht := t_lt t
  have h : 128 * (1024 * t.val + a.val) + b.val < 8388608 := by omega
  have h0 : (128 * (1024 * t.val + a.val) + b.val) / 8 < 1048576 := by omega
  have h1 : (128 * (1024 * t.val + a.val) + b.val) % 8 < 8 := by omega
  rw [blk1_apply m c t a b h0 h1, BlockSums.indAt_of_lt _ _ _ h h0 h1]

/-! ## Summed over the grid -/

/-- THE COLUMN SUMS: the blocks' column sums, added over the 64 points, are the whole array's. -/
theorem colSum_blocks (c : Dev nD) (e : Fin 64) :
    ∑ t : Fin cfg0.N, ∑ r : Fin 16384, pblk m c t (ix2 r e)
      = Cert.Spec.colSum (m ((c.tc : Thread nD τ).loc main_arg0)) e :=
  calc ∑ t : Fin cfg0.N, ∑ r : Fin 16384, pblk m c t (ix2 r e)
      = ∑ t : Fin cfg0.N, ∑ r : Fin 16384,
          BlockSums.colAt (m ((c.tc : Thread nD τ).loc main_arg0)) e (16384 * t.val + r.val) :=
        Finset.sum_congr rfl fun t _ => Finset.sum_congr rfl fun r _ => blk0_colAt m c t r e
    _ = ∑ s ∈ Finset.range cfg0.N, ∑ r : Fin 16384,
          BlockSums.colAt (m ((c.tc : Thread nD τ).loc main_arg0)) e (16384 * s + r.val) :=
        Fin.sum_univ_eq_sum_range (fun s : ℕ => ∑ r : Fin 16384,
          BlockSums.colAt (m ((c.tc : Thread nD τ).loc main_arg0)) e (16384 * s + r.val)) cfg0.N
    _ = ∑ s ∈ Finset.range 64, ∑ r : Fin 16384,
          BlockSums.colAt (m ((c.tc : Thread nD τ).loc main_arg0)) e (16384 * s + r.val) := by
        rw [N_eq]
    _ = Cert.Spec.colSum (m ((c.tc : Thread nD τ).loc main_arg0)) e := BlockSums.colSum_blocks _ e

/-- THE COUNTS: the blocks' indicator sums, added over the 64 points, are the whole array's counts. -/
theorem count_blocks (c : Dev nD) (e : Fin 64) :
    ∑ t : Fin cfg0.N, ∑ i : S1024x128.Idx, Cert.Spec.ind (xblk m c t i) (BitVec.ofNat 32 e.val)
      = Cert.Spec.count (m ((c.tc : Thread nD τ).loc main_arg1)) e :=
  calc ∑ t : Fin cfg0.N, ∑ i : S1024x128.Idx, Cert.Spec.ind (xblk m c t i) (BitVec.ofNat 32 e.val)
      = ∑ t : Fin cfg0.N, ∑ a : Fin 1024, ∑ b : Fin 128,
          BlockSums.indAt (m ((c.tc : Thread nD τ).loc main_arg1)) e (128 * (1024 * t.val + a.val) + b.val) :=
        Finset.sum_congr rfl fun t _ => by
          rw [sum_idx2]
          exact Finset.sum_congr rfl fun a _ => Finset.sum_congr rfl fun b _ => blk1_indAt m c t a b e
    _ = ∑ s ∈ Finset.range cfg0.N, ∑ a : Fin 1024, ∑ b : Fin 128,
          BlockSums.indAt (m ((c.tc : Thread nD τ).loc main_arg1)) e (128 * (1024 * s + a.val) + b.val) :=
        Fin.sum_univ_eq_sum_range (fun s : ℕ => ∑ a : Fin 1024, ∑ b : Fin 128,
          BlockSums.indAt (m ((c.tc : Thread nD τ).loc main_arg1)) e (128 * (1024 * s + a.val) + b.val)) cfg0.N
    _ = ∑ s ∈ Finset.range 64, ∑ a : Fin 1024, ∑ b : Fin 128,
          BlockSums.indAt (m ((c.tc : Thread nD τ).loc main_arg1)) e (128 * (1024 * s + a.val) + b.val) := by
        rw [N_eq]
    _ = Cert.Spec.count (m ((c.tc : Thread nD τ).loc main_arg1)) e := BlockSums.count_blocks _ e

end Cert.KernelIdeal.Blocks

end
-- ==== Proof.Accum.lean ====
/-
  What the accumulator block holds after the last grid point.

  After point n the block holds the point's update of what point n - 1 left, the first point starting from zero
  (`chain`).  Unrolled: cell y holds the sum, over the points so far, of each point's contribution at y — zero plus
  that sum, and zero plus x is x.  After the last point (number 63) the sum runs over all 64 points; taken block by
  block it is the column sum of the whole probability array in row 0 and the count over the whole index array in
  row 1 (the blocks are consecutive row ranges of the two arrays).
-/
import proofs.«430835_j57621281243501_1_alg».proof.Proof.StepValue
import proofs.«430835_j57621281243501_1_alg».proof.Proof.Blocks
import proofs.«430835_j57621281243501_1_alg».proof.Proof.Spec

set_option maxRecDepth 65536

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Blocks

variable (m : (ℓ : Loc nD τ sig) → Buf (Elt Ideal) ℓ)

/-- The block after point `n`: the point's update of what the point before left; the first point starts from zero. -/
def chain (c : Dev nD) : (n : ℕ) → n < cfg0.N → Vec Ideal S2x64 .f32
  | 0, h => stepFn (pblk m c ⟨0, h⟩) (xblk m c ⟨0, h⟩) (fun _ => 0)
  | n + 1, h => stepFn (pblk m c ⟨n + 1, h⟩) (xblk m c ⟨n + 1, h⟩) (chain c n (Nat.lt_of_succ_lt h))

/-- The generated running contents are that chain: by induction on the point, the first point by the first point's
    value, every other by the update over what the point before left. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show stepFn _ _ (outsAt0 m c n _) = stepFn _ _ (chain m c n _)
    rw [outsAt_eq c n]

/-- Point `t`'s contribution at cell `y`, as a total function of the point's number (zero past the grid). -/
def ctr (c : Dev nD) (t : ℕ) (y : S2x64.Idx) : EReal :=
  if h : t < cfg0.N then contrib (pblk m c ⟨t, h⟩) (xblk m c ⟨t, h⟩) y else 0

/-- The chain unrolled: the sum of the contributions of the points so far. -/
theorem chain_eq_sum (c : Dev nD) (y : S2x64.Idx) :
    ∀ (n : ℕ) (h : n < cfg0.N), chain m c n h y = ∑ t ∈ Finset.range (n + 1), ctr m c t y
  | 0, h => by
    rw [chain, Finset.sum_range_one, ctr, dif_pos h]
    show (0 : EReal) + _ = _
    rw [zero_add]
  | n + 1, h => by
    rw [chain, Finset.sum_range_succ, ← chain_eq_sum c y n (Nat.lt_of_succ_lt h), ctr, dif_pos h]
    rfl

/-- After the last point: the sum over all 64 points. -/
theorem chain_last (c : Dev nD) (y : S2x64.Idx) (h : 63 < cfg0.N) :
    chain m c 63 h y = ∑ t : Fin cfg0.N, contrib (pblk m c t) (xblk m c t) y := by
  rw [chain_eq_sum m c y 63 h, show Finset.range (63 + 1) = Finset.range cfg0.N from congrArg Finset.range N_0.symm,
    Finset.sum_range]
  refine Finset.sum_congr rfl fun t _ => ?_
  rw [ctr, dif_pos t.isLt]

/-- What the block holds after the last point: in row 0 the column sums of the whole probability array, in row 1 the
    counts over the whole index array. -/
def result (c : Dev nD) : Vec Ideal S2x64 .f32 := fun y =>
  if (y 0).val = 0 then Cert.Spec.colSum (m ((c.tc : Thread nD τ).loc main_arg0)) ⟨(y 1).val, idx2_lt1 y⟩
  else Cert.Spec.count (m ((c.tc : Thread nD τ).loc main_arg1)) ⟨(y 1).val, idx2_lt1 y⟩

theorem result_row (c : Dev nD) (b : Fin 64) :
    result m c (ix2 (0 : Fin 2) b) = Cert.Spec.colSum (m ((c.tc : Thread nD τ).loc main_arg0)) b := if_pos rfl

theorem result_cell (c : Dev nD) (b : Fin 64) :
    result m c (ix2 (1 : Fin 2) b) = Cert.Spec.count (m ((c.tc : Thread nD τ).loc main_arg1)) b :=
  if_neg (by show ¬((1 : Fin 2).val = 0); decide)

/-- The generated running contents after the last point are `result`. -/
theorem outs_final (c : Dev nD) (h : 63 < cfg0.N) : outsAt0 m c 63 h = result m c := by
  rw [outsAt_eq]
  funext y
  rw [chain_last]
  obtain ⟨a, b, rfl⟩ : ∃ (a : Fin 2) (b : Fin 64), y = ix2 a b := ⟨y 0, y 1, eq_ix2 y⟩
  match a with
  | ⟨0, _⟩ =>
    rw [show (⟨0, by omega⟩ : Fin 2) = (0 : Fin 2) from rfl, result_row]
    simp only [contrib_row]
    exact colSum_blocks m c b
  | ⟨1, _⟩ =>
    rw [show (⟨1, by omega⟩ : Fin 2) = (1 : Fin 2) from rfl, result_cell]
    simp only [contrib_cell]
    exact count_blocks m c b

end Cert.KernelIdeal.Acc

end
-- ==== Proof.KernelRun.lean ====
/-
  The idealized kernel's run, read through to its one result.

  The pipelined call carries a [2, 64] accumulator block over its 64 grid points and writes it back once, at the
  last point (point 63); the block index is (0, 0) there and the block is the whole [2, 64] result array, so that
  array ends holding what the last point leaves, `R`.  The operations after the call take row 0 (the column sums `s`)
  and row 1 (the counts `c`) of that array and compute

      0.01 · (64 · Σ_e (s_e / 2^20) · (c_e / 2^23))

  (`tailK s c`: the two divisors, the factor 64 and the factor nearest 0.01 are the program's 32-bit constants).  The
  two rows are read OUT of the array — a slice at offset (k, 0) of size [1, 64] followed by a reshape to [64] reads
  entry (k, e) at e — and the closing arithmetic is kept as the one function `tailK` of the two rows.

  The two argument arrays end as launched.
-/
import proofs.«430835_j57621281243501_1_alg».proof.Proof.Spec
import proofs.«430835_j57621281243501_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KRun

open Cert.KernelIdeal Cert.KernelIdeal.Gen Idealize.ShloMosaic.ValueIdx

variable (m : (ℓ : Loc nD τ sig) → Buf (Elt Ideal) ℓ) (ρ : Dev nD → PrngReg)

/-! ## The closing arithmetic, as one function of the two rows -/

/-- From the column sums `s` and the counts `c` (both [64]): `0.01 · (64 · Σ_e (s_e / 2^20) · (c_e / 2^23))`, the
    constants being the program's 32-bit words. -/
noncomputable def tailK (s c : FVec Ideal S64 .f32) : FVec Ideal S_ .f32 :=
  mulf (constant (F := Ideal) S_ .f32 0x3C23D70A#32) (mulf (constant (F := Ideal) S_ .f32 0x42800000#32)
    (Host.reduceAdd (mulf (Host.divf s (broadcastInDim S64 ![] bcast_S_S64 (constant (F := Ideal) S_ .f32 0x49800000#32)))
      (Host.divf c (broadcastInDim S64 ![] bcast_S_S64 (constant (F := Ideal) S_ .f32 0x4B000000#32))))
      (constant (F := Ideal) S_ .f32 0x00000000#32) reducesTo_S64_S_d0 h_S_))

/-! ## The result array after the call -/

/-- The last grid point. -/
abbrev t63 : Fin cfg0.N := ⟨63, by decide⟩

/-- The one write-back, at point 63, writes `R`: block (0, 0) of the [2, 64] array read through zero offsets is the
    array. -/
theorem flushed_eq (R : Dev nD → Vec Ideal S2x64 .f32) (hR : ∀ c (h : 63 < cfg0.N), outsAt0 m c 63 h = R c)
    (c : Dev nD) (t : Fin cfg0.N) (hf : (cfg0.win 2).flush t = true) :
    (dats m 0 c).flushed 2 t = ((cfg0.win 2).blk t).view.read (Elt Ideal) (R c) := by
  have hN : cfg0.N = 64 := N_0
  have h63 : t.val = 63 := by have := (flush0_2 t).mp hf; have := t.isLt; omega
  obtain rfl : t = t63 := Fin.ext h63
  show (cfg0.win 2).cut (grid0.coords t63) ((dats m 0 c).after 2 t63) = _
  rw [after0_2]
  show (cfg0.win 2).cut (grid0.coords t63) (outsAt0 m c 63 t63.isLt) = _
  rw [hR c t63.isLt]
  have hz' : (fun a => win0_2.index t63 a * main_v1.ty.shape.size a) = fun _ => 0 :=
    funext fun a => by fin_cases a <;> decide +kernel
  exact (Memref.read_access_unit_zero (Elt Ideal) main_v1 hz' (fun a => by rw [congrFun hz' a]; simp) (R c)).symm

/-- So the result array ends holding `R`: point 63's block covers it. -/
theorem final (R : Dev nD → Vec Ideal S2x64 .f32) (hR : ∀ c (h : 63 < cfg0.N), outsAt0 m c 63 h = R c) (c : Dev nD) :
    (dats m 0 c).arrAt 2 cfg0.N = R c :=
  (dats m 0 c).arrAt_eq_of_cover 2 (R c) (flushed_eq m R hR c) fun i =>
    ⟨t63, (flush0_2 t63).mpr rfl, by
      show i ∈ ((View.whole main_v1).slice (win0_2.rect t63)).set
      rw [View.set_slice_whole, Rect.mem_set_unit]
      intro a
      have h0 : (i 0 : Nat) < 2 := (i 0).isLt
      have h1 : (i 1 : Nat) < 64 := (i 1).isLt
      match a with
      | ⟨0, _⟩ =>
        show win0_2.index t63 0 * win0_2.size 0 ≤ (i 0 : Nat)
          ∧ (i 0 : Nat) < win0_2.index t63 0 * win0_2.size 0 + win0_2.xsize (grid0.coords t63) 0
        rw [show win0_2.index t63 0 * win0_2.size 0 = 0 from by decide +kernel,
          show win0_2.xsize (grid0.coords t63) 0 = 2 from by decide +kernel]
        omega
      | ⟨1, _⟩ =>
        show win0_2.index t63 1 * win0_2.size 1 ≤ (i 1 : Nat)
          ∧ (i 1 : Nat) < win0_2.index t63 1 * win0_2.size 1 + win0_2.xsize (grid0.coords t63) 1
        rw [show win0_2.index t63 1 * win0_2.size 1 = 0 from by decide +kernel,
          show win0_2.xsize (grid0.coords t63) 1 = 64 from by decide +kernel]
        omega⟩

/-! ## The two rows read out of the result array -/

/-- Row 0 of a [2, 64] array, as the slice at offset (0, 0) of size [1, 64] reshaped to [64]: entry `e` is `X (0, e)`. -/
theorem row0 (X : Vec Ideal S2x64 .f32) :
    shapeCast S64 (extractStridedSlice S1x64 ![0, 0] X slices_S2x64_S1x64_0_0) shapeCasts_S1x64_S64
      = fun j => X (ix2 (0 : Fin 2) (j 0)) := by
  funext j
  refine (shapeCast_apply (s := S1x64) (t := S64) _ _ j (ix2 (0 : Fin 1) (j 0)) ?_).trans ?_
  · rw [Shape.rowMajor_val_two, Shape.rowMajor_val_one]; show 0 * 64 + (j 0).val = (j 0).val; omega
  · exact extractStridedSlice_apply _ _ _ _ _ (fun a => match a with
      | ⟨0, _⟩ => by show (0 : ℕ) = 0 + 0; rfl
      | ⟨1, _⟩ => by show (j 0).val = 0 + (j 0).val; omega)

/-- Row 1 likewise, the slice at offset (1, 0): entry `e` is `X (1, e)`. -/
theorem row1 (X : Vec Ideal S2x64 .f32) :
    shapeCast S64 (extractStridedSlice S1x64 ![1, 0] X slices_S2x64_S1x64_1_0) shapeCasts_S1x64_S64
      = fun j => X (ix2 (1 : Fin 2) (j 0)) := by
  funext j
  refine (shapeCast_apply (s := S1x64) (t := S64) _ _ j (ix2 (0 : Fin 1) (j 0)) ?_).trans ?_
  · rw [Shape.rowMajor_val_two, Shape.rowMajor_val_one]; show 0 * 64 + (j 0).val = (j 0).val; omega
  · exact extractStridedSlice_apply _ _ _ _ _ (fun a => match a with
      | ⟨0, _⟩ => by show (1 : ℕ) = 1 + 0; rfl
      | ⟨1, _⟩ => by show (j 0).val = 0 + (j 0).val; omega)

/-! ## The operations after the call -/

/-- What the operations after the call leave in the result word: the closing arithmetic of the two rows of `R`. -/
theorem tail_eq (R : Dev nD → Vec Ideal S2x64 .f32) (hR : ∀ c (h : 63 < cfg0.N), outsAt0 m c 63 h = R c) (c : Dev nD) :
    Pipeline.afterTail₀ cfgs (dats m) 0 (V0 m) [hostOps1] c main_v13
      = tailK (fun j => R c (ix2 (0 : Fin 2) (j 0))) (fun j => R c (ix2 (1 : Fin 2) (j 0))) := by
  unfold Pipeline.afterTail₀
  show StableHlo.after hostOps1 _ (Proc.devRef .tc main_v13) = _
  after_results
  have hX : Pipeline.withArrays (cfgs 0).spec c (V0 m c) (fun w => (dats m 0 c).arrAt w (cfgs 0).N)
      (Proc.devRef .tc main_v1) = R c :=
    (Pipeline.withArrays_arr spec0 launch0.win.arr_inj c _ _ 2).trans (final m R hR c)
  rw [hX]
  show tailK (shapeCast S64 (extractStridedSlice S1x64 ![0, 0] (R c) slices_S2x64_S1x64_0_0) shapeCasts_S1x64_S64)
      (shapeCast S64 (extractStridedSlice S1x64 ![1, 0] (R c) slices_S2x64_S1x64_1_0) shapeCasts_S1x64_S64) = _
  rw [row0, row1]

/-! ## The run -/

/-- THE KERNEL'S RUN, READ: every execution terminates with the result word at the closing arithmetic of the two rows
    of what the last grid point leaves (`R`), and the two arguments as launched. -/
theorem kernel_run (R : Dev nD → Vec Ideal S2x64 .f32) (hR : ∀ c (h : 63 < cfg0.N), outsAt0 m c 63 h = R c) :
    θ_run defs (onTc (τ := τ) (main (F := Ideal))) ⟨m, fun _ => 0, ρ⟩ (fun r => ∀ c : Dev nD,
      r.2.mem ((c.tc : Thread nD τ).loc main_v13)
          = tailK (fun j => R c (ix2 (0 : Fin 2) (j 0))) (fun j => R c (ix2 (1 : Fin 2) (j 0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_eq m R hR c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c)⟩)
    (run_main m ρ)

end Cert.KernelIdeal.KRun

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.RefCount.lean ====
/-
  An integer scatter-add, read as a sum.

  The host's scatter is a left fold over the update positions in row-major order: each position whose result
  index lies inside the operand replaces that one entry by the entry plus the update; a position whose result
  index lies outside changes nothing. Addition of machine words is commutative and associative, so the fold is
  the operand's entry plus the sum, over all update positions, of the updates that land on that entry:
  * `foldl_addi_apply`: the fold over ANY list of positions, from any starting array (induction on the list, the
    starting array general);
  * `scatter_addi_apply`: the scatter at an entry is the operand's entry plus the sum over the update indices of
    "the update if it lands here, else zero";
  * `scatter_count_toInt`: from an operand of zeros with every update one, the entry read as a signed integer
    is the NUMBER of update indices that land on it, provided there are fewer than 2^31 of them (so that the
    32-bit word does not wrap).
  Then the POINT scatter along the one axis of a vector (what a histogram lowers to: each of n updates carries one
  start index, read off column 0 of an [n, 1] index array, and lands on the one entry it names):
  * `window_zero`, `start_eq`: its window coordinate is 0 and its start is the index word read signed;
  * `point_land_iff`: update j lands on entry p exactly when its index word, read signed, is p's coordinate;
  * `point_count`: from zeros with every update one, the entry converted to a real is the sum over the updates of
    the indicator "the index word is the word of p's coordinate" (m ≤ 2^31 entries, fewer than 2^31 updates).
  Last, `sum_shapeCast`: a sum over a reshaped array is the sum over the array (the reshape is a bijection of the
  index sets).
  Everything is over variables (shapes, extents, dimension numbers), so nothing here is evaluated at a large extent.
-/
import Idealize.ShloMosaic.PureOps.ShapeOps
import Idealize.ShloMosaic.Lib.ValueIdx
import Mathlib.Data.BitVec
import Mathlib.Algebra.BigOperators.Fin
import Mathlib.Algebra.BigOperators.Ring.Finset
import Mathlib.Data.EReal.Basic
import proofs.«430835_j57621281243501_1_alg».proof.Proof.LibPointScatter

open Idealize.ShloMosaic Idealize.ShloMosaic.ValueIdx

namespace Cert.RefCount

variable {s si u : Shape} {w v : Nat}

/-- The fold of the scatter's step over any list of update positions, from any starting array `r`: at entry
    `i` it is `r i` plus the sum over the list of "the update if its result index is `i`, else zero". -/
theorem foldl_addi_apply (d : ScatterDims s si u) (idx : IVec si w) (upd : u.Idx → BitVec v)
    (L : List (Fin u.numel)) (r : s.Idx → BitVec v) (i : s.Idx) :
    (L.foldl (fun r n =>
        match d.resultIdx? (u.rowMajor.symm n) idx with
        | some p => fun i' => if i' = p then IntOp.addi (r p) (upd (u.rowMajor.symm n)) else r i'
        | none => r) r) i
      = r i + (L.map fun n =>
          if d.resultIdx? (u.rowMajor.symm n) idx = some i then upd (u.rowMajor.symm n) else 0).sum := by
  induction L generalizing r with
  | nil => simp
  | cons n L ih =>
    rw [List.foldl_cons, ih, List.map_cons, List.sum_cons, ← add_assoc]
    congr 1
    cases h : d.resultIdx? (u.rowMajor.symm n) idx with
    | none => simp
    | some p =>
      by_cases hp : i = p
      · subst hp
        simp [IntOp.addi]
      · have hne : ¬ (some p = some i) := fun e => hp (Option.some.inj e).symm
        simp [hp, hne]

/-- The integer scatter-add at an entry: the operand's entry plus the sum, over the update indices, of the
    updates that land on it. -/
theorem scatter_addi_apply (d : ScatterDims s si u) (x : s.Idx → BitVec v) (idx : IVec si w)
    (upd : u.Idx → BitVec v) (i : s.Idx) :
    Host.scatter d IntOp.addi x idx upd i
      = x i + ∑ j : u.Idx, if d.resultIdx? j idx = some i then upd j else 0 := by
  refine (foldl_addi_apply d idx upd (List.finRange u.numel) x i).trans ?_
  rw [← Fin.sum_univ_def]
  congr 1
  exact Equiv.sum_comp u.rowMajor.symm (fun j => if d.resultIdx? j idx = some i then upd j else 0)

/-- Counting: from zeros, with every update one, the entry (a 32-bit word read signed) is the number of update
    indices that land on it, when the updates number fewer than 2^31. -/
theorem scatter_count_toInt (d : ScatterDims s si u) (x : s.Idx → BitVec 32) (idx : IVec si w)
    (upd : u.Idx → BitVec 32) (hx : ∀ i, x i = 0) (hupd : ∀ j, upd j = 1) (hu : u.numel < 2 ^ 31) (i : s.Idx) :
    (Host.scatter d IntOp.addi x idx upd i).toInt
      = ((Finset.univ.filter fun j : u.Idx => d.resultIdx? j idx = some i).card : Int) := by
  rw [scatter_addi_apply, hx, zero_add]
  simp only [hupd]
  rw [Finset.sum_boole, BitVec.natCast_eq_ofNat, BitVec.toInt_ofNat']
  have hcard : (Finset.univ.filter fun j : u.Idx => d.resultIdx? j idx = some i).card ≤ u.numel := by
    calc _ ≤ (Finset.univ : Finset u.Idx).card := Finset.card_filter_le _ _
      _ = u.numel := by rw [Finset.card_univ, Fintype.card_congr u.rowMajor, Fintype.card_fin]
  apply Int.bmod_eq_of_le <;> omega

/-! ## The point scatter along a vector's one axis -/

section Point
variable {m n : Nat}

/-- The dimension numbers of a point scatter of n scalar updates into a vector of m entries, the start indices
    the column of an [n, 1] array: no window axes, the operand's axis inserted, the index vector on axis 1. -/
abbrev pointDims
    (hwf : ScatterDims.WF (⟨1, ![m]⟩ : Shape) (⟨2, ![n, 1]⟩ : Shape) (⟨1, ![n]⟩ : Shape) [] [0] [0] 1) :
    ScatterDims (⟨1, ![m]⟩ : Shape) (⟨2, ![n, 1]⟩ : Shape) (⟨1, ![n]⟩ : Shape) :=
  { updateWindowDims := [], insertedWindowDims := [0], scatterDimsToOperandDims := [0], indexVectorDim := 1,
    wf := hwf }

/-- The operand's one axis is an inserted one, so the window coordinate on it is 0. -/
theorem window_zero (hwf) (j : (⟨1, ![n]⟩ : Shape).Idx) (a : Fin 1) : (pointDims (m := m) hwf).window j a = 0 := by
  unfold ScatterDims.window
  rw [dif_neg]
  intro h
  have hk : a ∈ Shape.kept (⟨1, ![m]⟩ : Shape) [0] := h
  unfold Shape.kept at hk
  rw [List.mem_filter] at hk
  have ha : a = 0 := Subsingleton.elim _ _
  subst ha
  simp at hk

/-- The start on the operand's one axis is update j's index word, read signed: the entry of the index array at
    row j's coordinate, column 0. -/
theorem start_eq (hwf) (j : (⟨1, ![n]⟩ : Shape).Idx) (idx : IVec (⟨2, ![n, 1]⟩ : Shape) w) (a : Fin 1) :
    (pointDims (m := m) hwf).start j idx a = (idx (ix2 (j 0) 0)).toInt := by
  have ha : a = 0 := Subsingleton.elim _ _
  subst ha
  unfold ScatterDims.start
  rw [dif_pos (by simp)]
  congr 2
  funext b
  match b with
  | ⟨0, _⟩ =>
    apply Fin.ext
    unfold ScatterDims.siIdx
    split
    · rename_i h; exact absurd h Nat.zero_ne_one
    · unfold ScatterDims.siCoord
      show ((j _).val : Nat) = (j 0).val
      exact congrArg (fun t => (j t).val) (Subsingleton.elim _ _)
  | ⟨1, h1⟩ =>
    apply Fin.ext
    have hlt := ((pointDims (m := m) hwf).siIdx j
      ⟨List.idxOf 0 (pointDims (m := m) hwf).scatterDimsToOperandDims, by simp⟩ ⟨1, h1⟩).isLt
    change _ < 1 at hlt
    show _ = 0
    omega

/-- Update j lands on entry p exactly when its index word, read signed, is p's coordinate. -/
theorem point_land_iff (hwf) (j : (⟨1, ![n]⟩ : Shape).Idx) (idx : IVec (⟨2, ![n, 1]⟩ : Shape) w)
    (p : (⟨1, ![m]⟩ : Shape).Idx) :
    (pointDims (m := m) hwf).resultIdx? j idx = some p ↔ (idx (ix2 (j 0) 0)).toInt = ((p 0).val : Int) := by
  rw [Cert.Lib.PointScatter.resultIdx?_eq_some_iff]
  constructor
  · intro h
    have h0 := h 0
    rw [start_eq, window_zero] at h0
    simpa using h0
  · intro h a
    have ha : a = 0 := Subsingleton.elim _ _
    subst ha
    rw [start_eq, window_zero]
    simpa using h

/-- A 32-bit word read signed is the natural number e < 2^31 exactly when it is e's word. -/
theorem toInt_eq_natCast_iff (b : BitVec 32) (e : Nat) (he : e < 2 ^ 31) :
    b.toInt = (e : Int) ↔ b = BitVec.ofNat 32 e := by
  have hofe : (BitVec.ofNat 32 e).toInt = (e : Int) := by
    rw [BitVec.toInt_ofNat']
    apply Int.bmod_eq_of_le <;> omega
  constructor
  · intro h
    exact BitVec.eq_of_toInt_eq (h.trans hofe.symm)
  · intro h
    rw [h, hofe]

/-- The number of elements with a property, as an extended real, is the sum of the property's indicator. -/
theorem card_filter_toEReal {ι : Type} [Fintype ι] (P : ι → Prop) [DecidablePred P] :
    ((((Finset.univ.filter P).card : Int) : ℝ) : EReal) = ∑ j : ι, if P j then (1 : EReal) else 0 := by
  rw [← Finset.sum_filter, Finset.sum_const, nsmul_one, Int.cast_natCast]
  rfl

/-- Counting by a point scatter: from zeros, with every update one, entry p converted to a real is the sum over
    the updates of the indicator "update j's index word is the word of p's coordinate". -/
theorem point_count (hwf) (x : (⟨1, ![m]⟩ : Shape).Idx → BitVec 32) (idx : IVec (⟨2, ![n, 1]⟩ : Shape) 32)
    (upd : (⟨1, ![n]⟩ : Shape).Idx → BitVec 32) (hx : ∀ i, x i = 0) (hupd : ∀ j, upd j = 1)
    (hn : n < 2 ^ 31) (hm : m ≤ 2 ^ 31) (p : (⟨1, ![m]⟩ : Shape).Idx) :
    ((((Host.scatter (pointDims (m := m) hwf) IntOp.addi x idx upd p).toInt : Int) : ℝ) : EReal)
      = ∑ j : (⟨1, ![n]⟩ : Shape).Idx, if idx (ix2 (j 0) 0) = BitVec.ofNat 32 (p 0).val then (1 : EReal) else 0 := by
  have hnumel : (⟨1, ![n]⟩ : Shape).numel < 2 ^ 31 := by
    have : (⟨1, ![n]⟩ : Shape).numel = n := by simp [Shape.numel]
    rw [this]; exact hn
  rw [scatter_count_toInt _ x idx upd hx hupd hnumel p, card_filter_toEReal]
  refine Finset.sum_congr rfl fun j _ => if_congr ?_ rfl rfl
  have hp : (p 0).val < 2 ^ 31 := by
    have h := (p 0).isLt
    change _ < m at h
    omega
  rw [point_land_iff, toInt_eq_natCast_iff _ _ hp]

end Point

/-- A sum over a reshaped array is the sum over the array: the reshape matches the two index sets one to one. -/
theorem sum_shapeCast {α M : Type} [AddCommMonoid M] {s t : Shape} (h : s.ShapeCasts t) (x : s.Idx → α) (g : α → M) :
    ∑ j : t.Idx, g (shapeCast t x h j) = ∑ q : s.Idx, g (x q) :=
  Equiv.sum_comp (Shape.reshapeEquiv h) (fun q => g (x q))

end Cert.RefCount
-- ==== Proof.RefValue.lean ====
/-
  The reference program, read as mathematics.

  The reference computes two arrays indexed by the expert number e (0 ≤ e < 64) and then a closing arithmetic on
  them:
  * its first array is the reduction of the probability array over the rows from the constant zero: at e it is
    0 + Σ_R A[R, e], the column sum `Cert.Spec.colSum A e` (`refSum_eq`);
  * its second is a histogram: the index array is flattened to 8388608 words, each word w is clipped to
    max(0, w) and then w + 64 is taken where the clipped word is negative; a scatter-add of ones at these words
    into 64 zeros follows, and the result is converted to a real. When every index word is non-negative the clip
    and the re-selection change nothing (`clip_select_id`), so entry e of the scatter counts the flat positions
    whose word is e's; the flattening matches flat positions with (row, column) pairs one to one, so the count is
    Σ_R Σ_k [I[R, k] = e], which is `Cert.Spec.count I e` (`refCnt_eq`);
  * `tail s c` is the closing arithmetic as a function of the two arrays, 0.01 · (64 · (0 + Σ_e (s_e / 2^20) · (c_e / 2^23))),
    and the program's result is `tail` of the two arrays above (`ref_value`).
-/
import proofs.«430835_j57621281243501_1_alg».proof.Proof.Gen.ReferenceIdeal.Read
import proofs.«430835_j57621281243501_1_alg».proof.Proof.Spec
import proofs.«430835_j57621281243501_1_alg».proof.Proof.RefCount

noncomputable section

open Idealize.ShloMosaic Idealize.ShloMosaic.ValueIdx
open Cert.ReferenceIdeal Cert.ReferenceIdeal.Gen Cert.ReferenceIdeal.Read

namespace Cert.RefSide

/-- The closing arithmetic of the reference as a function of its two per-expert arrays `s` (the column sums) and
    `c` (the counts): 0.01 · (64 · (0 + Σ_e (s_e / 2^20) · (c_e / 2^23))). -/
noncomputable def tail (s c : FVec Ideal S64 .f32) : FVec Ideal S_ .f32 :=
  mulf (constant (F := Ideal) S_ .f32 0x3C23D70A#32) (mulf (constant (F := Ideal) S_ .f32 0x42800000#32)
    (Host.reduceAdd (F := Ideal)
      (mulf (Host.divf (F := Ideal) s (broadcastInDim S64 ![] bcast_S_S64 (constant (F := Ideal) S_ .f32 0x49800000#32)))
            (Host.divf (F := Ideal) c (broadcastInDim S64 ![] bcast_S_S64 (constant (F := Ideal) S_ .f32 0x4B000000#32))))
      (constant (F := Ideal) S_ .f32 0x00000000#32) reducesTo_S64_S_d0 h_S_))

/-- The reference's first array is the column sums: the reduction starts from the constant zero. -/
theorem refSum_eq (A : (⟨S1048576x64, .f32⟩ : BufTy).Contents (Elt Ideal)) :
    val_main_v0 (F := Ideal) A = fun j => Cert.Spec.colSum A (j 0) := by
  funext j
  rw [val_main_v0_apply, val_main_cst_apply]
  show Ideal.ofBits .f32 0x00000000#32 + _ = _
  rw [Ideal.ofBits_zero_f32, zero_add]
  unfold Cert.Spec.colSum
  refine Finset.sum_congr rfl fun k _ => congrArg A ?_
  funext a
  match a with
  | ⟨0, _⟩ => rfl
  | ⟨1, _⟩ => rfl

/-- On a non-negative word the clip max(0, ·) is the identity, the comparison "clipped word < 0" is false, and so
    the selection between "word + 64" and the word returns the word. -/
theorem clip_select_id (b y : BitVec 32) (hb : 0 ≤ b.toInt) :
    Scalar.select (IntOp.cmpi .slt (IntOp.maxsi 0#32 b) 0#32) y (IntOp.maxsi 0#32 b) = b := by
  have hs : b.slt 0#32 = false := by
    unfold BitVec.slt
    rw [BitVec.toInt_zero]
    exact decide_eq_false (not_lt.mpr hb)
  have hm : IntOp.maxsi 0#32 b = b := by
    unfold IntOp.maxsi
    rw [hs]; rfl
  rw [hm]
  unfold IntOp.cmpi Scalar.select
  simp only [hs]
  rfl

/-- With every index word non-negative, the words the scatter reads are the flattened index array's. -/
theorem main_v10_eq (I : (⟨S1048576x8, .i32⟩ : BufTy).Contents (Elt Ideal)) (hI : ∀ j, 0 ≤ (I j).toInt)
    (q : S8388608.Idx) : val_main_v10 (F := Ideal) I q = val_main_v3 (F := Ideal) I q := by
  have hq : 0 ≤ (val_main_v3 (F := Ideal) I q).toInt := by rw [val_main_v3_apply]; exact hI _
  rw [val_main_v10_apply, val_main_v7_apply, val_main_v5_apply, val_main_call0_v1_apply, val_main_call0_v0_apply,
    val_main_c_1_apply, val_main_v6_apply, val_main_c_2_apply]
  exact clip_select_id _ _ hq

/-- The reference's second array is the counts. -/
theorem refCnt_eq (I : (⟨S1048576x8, .i32⟩ : BufTy).Contents (Elt Ideal)) (hI : ∀ j, 0 ≤ (I j).toInt) :
    val_main_v14 (F := Ideal) I = fun j => Cert.Spec.count I (j 0) := by
  funext j
  rw [val_main_v14_apply]
  show ((((val_main_v13 (F := Ideal) I j).toInt : Int) : ℝ) : EReal) = _
  have hx : ∀ i, val_main_v4 (F := Ideal) i = 0 := fun i => by rw [val_main_v4_apply, val_main_c_apply]; rfl
  have hupd : ∀ q, val_main_v12 (F := Ideal) q = 1 := fun q => by rw [val_main_v12_apply, val_main_c_4_apply]; rfl
  refine (Cert.RefCount.point_count (m := 64) (n := 8388608) scatter_S64_S8388608x1_S8388608_n_0_0_1_wf
    (val_main_v4 (F := Ideal)) (val_main_v11 (F := Ideal) I) (val_main_v12 (F := Ideal)) hx hupd
    (by norm_num) (by norm_num) j).trans ?_
  have hread : ∀ q : S8388608.Idx, val_main_v11 (F := Ideal) I (ix2 (q 0) 0) = val_main_v3 (F := Ideal) I q := fun q => by
    rw [val_main_v11_apply]
    have hq : idx_main_v11 (ix2 (q 0) 0) = q := by
      funext a
      match a with
      | ⟨0, _⟩ => rfl
    rw [hq, main_v10_eq I hI q]
  simp only [hread]
  unfold val_main_v3
  rw [Cert.RefCount.sum_shapeCast shapeCasts_S1048576x8_S8388608 I
    (fun b => if b = BitVec.ofNat 32 (j 0).val then (1 : EReal) else 0), sum_idx2]
  rfl

/-- The reference's result is the closing arithmetic applied to the column sums and the counts. -/
theorem ref_value (A : (⟨S1048576x64, .f32⟩ : BufTy).Contents (Elt Ideal))
    (I : (⟨S1048576x8, .i32⟩ : BufTy).Contents (Elt Ideal)) (hI : ∀ j, 0 ≤ (I j).toInt) :
    val_main_v20 (F := Ideal) A I
      = tail (fun j => Cert.Spec.colSum A (j 0)) (fun j => Cert.Spec.count I (j 0)) := by
  rw [← refSum_eq A, ← refCnt_eq I hI]
  rfl

end Cert.RefSide
-- ==== Proof.PreNonneg.lean ====
/-
  What the precondition says of the index array.

  The precondition is the conjunction of two "for all entries" tests, each printed as a reduction by "and" from the
  constant true: every probability has finite magnitude, and every index word is at least 0 as a signed integer.
  If the conjunction is true then its second half is, a reduction by "and" over all axes that came out true met
  only true entries, and the entry at j is the signed comparison 0 ≤ I j. Hence every index word, read signed, is
  non-negative. Only this half is used; nothing is read off the probabilities.
-/
import proofs.«430835_j57621281243501_1_alg».proof.Proof.Gen.Pre_finite_inputs
import Idealize.ShloMosaic.Lib.ReduceAll
import Idealize.ShloMosaic.Lib.StableHlo.Predicate
import Idealize.ShloMosaic.Lib.ValueIdx

open Idealize.ShloMosaic Idealize.ShloMosaic.ValueIdx

namespace Cert.PreSide

open Cert.Pre_finite_inputs Cert.Pre_finite_inputs.Gen

/-- Under the precondition every index word, read as a signed integer, is non-negative. -/
theorem pre_nonneg {F : FTy → Type} [FloatOps F] (A : FVec F Cert.Pre_finite_inputs.S1048576x64 .f32)
    (I : IVec Cert.Pre_finite_inputs.S1048576x8 32)
    (h : Cert.Pre_finite_inputs.fn (F := F) A I = fun _ => 1#1) : ∀ j, 0 ≤ (I j).toInt := by
  intro j
  have h0 := congrFun h ix0
  dsimp only [Cert.Pre_finite_inputs.fn] at h0
  have h1 := (IntOp.andi_eq_one.1 h0).2
  haveI : Subsingleton Cert.Pre_finite_inputs.S_.Idx := ⟨fun a b => funext fun d => d.elim0⟩
  have h2 := Host.reduce_andi_all _ _ _ _ _ h1 j
  change IntOp.cmpi .sge (I j) _ = 1#1 at h2
  rw [StableHlo.Predicate.bcast_scalar _ Cert.Pre_finite_inputs.Gen.h_S_] at h2
  unfold IntOp.cmpi at h2
  rw [StableHlo.Predicate.ofBool_eq_one_iff] at h2
  have h3 : (0#32 : BitVec 32).toInt ≤ (I j).toInt := BitVec.sle_iff_toInt_le.1 h2
  rw [BitVec.toInt_zero] at h3
  exact h3

end Cert.PreSide
-- ==== Proof.lean ====
/-
  The kernel computes a load-balancing loss of a mixture-of-experts router from the probability array
  A : f32[1048576, 64] and the array I : i32[1048576, 8] of chosen expert numbers:

      0.01 · ( 64 · Σ_e ( (Σ_R A[R, e]) / 2^20 ) · ( #{(R, k) : I[R, k] = e} / 2^23 ) ).

  The kernel streams both arrays through 64 grid points.  One [2, 64] block is carried across the points: row 0
  accumulates the column sums of the probability blocks, row 1 accumulates, expert by expert, the number of entries of
  the index block equal to that expert (a compare, a conversion to 0 / 1, a sum over the block).  The first point
  zero-fills the block; the last writes it back, and the closing arithmetic runs on the host.  The reference takes the
  column means with one reduction and the histogram with a clip to zero from below followed by a scatter-add of ones.

  Over the extended reals the two agree whenever every expert number is non-negative (the added precondition): then
  the reference's clip changes nothing, its scatter counts exactly the entries equal to e (an index of 64 or more is
  dropped by the scatter and matches no compare of the kernel), a sum of 0 / 1 indicators is the count, and sums of
  extended reals may be regrouped freely — point by point and block by block on the kernel's side, all at once on the
  reference's.  Both programs then apply the same closing arithmetic to the same two arrays of 64 numbers.

    * Spec.lean        the column sums and the counts, as functions of the two arrays
    * Pieces.lean      the stores one grid point makes, as a list built by recursion on the expert number
    * Count.lean       the kernel's per-expert count is the sum of the indicators
    * StepValue.lean   what one grid point leaves in the carried block (first point; any other point)
    * Blocks.lean, BlockSums.lean   the input blocks as parts of the arrays; sums regrouped block by block
    * Accum.lean       the carried block after the last point: column sums and counts of the whole arrays
    * KernelRun.lean   the kernel's run: the write-back of the last point and the closing arithmetic
    * RefCount.lean, RefValue.lean  the reference's scatter as a count; the reference's value
    * PreNonneg.lean   the precondition says every expert number is non-negative
-/
import proofs.«430835_j57621281243501_1_alg».proof.Defs
import proofs.«430835_j57621281243501_1_alg».proof.Proof.Gen.Kernel
import proofs.«430835_j57621281243501_1_alg».proof.Proof.Gen.Kernel.Skeleton
import proofs.«430835_j57621281243501_1_alg».proof.Proof.Gen.Kernel.Launch
import proofs.«430835_j57621281243501_1_alg».proof.Proof.Gen.Kernel.Points
import proofs.«430835_j57621281243501_1_alg».proof.Proof.Gen.Kernel.Frame
import proofs.«430835_j57621281243501_1_alg».proof.Proof.Gen.KernelIdeal
import proofs.«430835_j57621281243501_1_alg».proof.Proof.Gen.KernelIdeal.Skeleton
import proofs.«430835_j57621281243501_1_alg».proof.Proof.Gen.KernelIdeal.Launch
import proofs.«430835_j57621281243501_1_alg».proof.Proof.Gen.KernelIdeal.Points
import proofs.«430835_j57621281243501_1_alg».proof.Proof.Gen.KernelIdeal.Frame
import proofs.«430835_j57621281243501_1_alg».proof.Proof.Gen.ReferenceIdeal
import proofs.«430835_j57621281243501_1_alg».proof.Proof.Gen.Pre_finite_inputs
import proofs.«430835_j57621281243501_1_alg».proof.Proof.Gen.ReferenceIdeal.Run
import proofs.«430835_j57621281243501_1_alg».proof.Proof.Gen.ReferenceIdeal.Read
import proofs.«430835_j57621281243501_1_alg».proof.Proof.Accum
import proofs.«430835_j57621281243501_1_alg».proof.Proof.KernelRun
import proofs.«430835_j57621281243501_1_alg».proof.Proof.RefValue
import proofs.«430835_j57621281243501_1_alg».proof.Proof.PreNonneg
import Idealize.ShloMosaic.Adequacy
import Idealize.ShloMosaic.Init

noncomputable section

namespace Cert.Proof

open Idealize.ShloMosaic Idealize.SL.Sem Idealize.ShloMosaic.ValueIdx

/-- The word-level kernel runs, faults nowhere and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- The closing arithmetic is spelt the same in both programs. -/
theorem tail_eq (s c : FVec Ideal Cert.KernelIdeal.S64 .f32) : Cert.RefSide.tail s c = Cert.KernelIdeal.KRun.tailK s c := rfl

/-- From memories that agree on the two arrays, with every expert number non-negative, both programs end with the
    closing arithmetic of the arrays' column sums and counts. -/
theorem algebraic : Cert.algebraic_KernelIdeal_ReferenceIdeal := by
  intro m ρ m' ρ' hpre hagree
  refine ⟨fun c => Cert.KernelIdeal.KRun.tailK
      (fun j => Cert.KernelIdeal.Acc.result m c (ix2 (0 : Fin 2) (j 0)))
      (fun j => Cert.KernelIdeal.Acc.result m c (ix2 (1 : Fin 2) (j 0))),
    Cert.KernelIdeal.KRun.kernel_run m ρ (Cert.KernelIdeal.Acc.result m) (fun c h => Cert.KernelIdeal.Acc.outs_final m c h), ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v20_eq _ _).trans ?_))
  have hI := Cert.PreSide.pre_nonneg _ _ (hpre c)
  rw [(hagree c).1, (hagree c).2, Cert.RefSide.ref_value _ _ hI, tail_eq]
  exact congrArg₂ Cert.KernelIdeal.KRun.tailK
    (funext fun j => (Cert.KernelIdeal.Acc.result_row m c (j 0)).symm)
    (funext fun j => (Cert.KernelIdeal.Acc.result_cell m c (j 0)).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
